-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_arg2)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x64 : Shape := ⟨2, ![1600000, 64]⟩
abbrev S1x64 : Shape := ⟨2, ![1, 64]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S1x64 : S_.BroadcastsInDim S1x64 (![] : Fin 0 → Fin S1x64.rank)
  reducesTo_S1x64_S_d0_1 : S1x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part4 {F : FTy → Type} [FloatOps F] (main_arg1 : IVec S2x1600000 32) (main_v67 : IVec S_ 1) : IVec S_ 1 :=
  let main_c_26 : IVec S_ 32 := constantI S_ 32 100000#32
  let main_v68 : IVec S2x1600000 32 := broadcastInDim S2x1600000 ![] bcast_S_S2x1600000 main_c_26
  let main_v69 : IVec S2x1600000 1 := cmpi .slt main_arg1 main_v68
  let main_c_27 : IVec S_ 1 := constantI S_ 1 1#1
  let main_v70 : IVec S_ 1 := (fun x v => Host.reduce IntOp.andi x v reducesTo_S2x1600000_S_d0_1 h_S_) main_v69 main_c_27
  let main_v71 : IVec S_ 1 := andi main_v67 main_v70
  main_v71

def fn_part3 {F : FTy → Type} [FloatOps F] (main_arg1 : IVec S2x1600000 32) (main_arg12 : FVec F S128x64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_c_24 : IVec S_ 32 := constantI S_ 32 0#32
  let main_v64 : IVec S2x1600000 32 := broadcastInDim S2x1600000 ![] bcast_S_S2x1600000 main_c_24
  let main_v65 : IVec S2x1600000 1 := cmpi .sge main_arg1 main_v64
  let main_c_25 : IVec S_ 1 := constantI S_ 1 1#1
  let main_v66 : IVec S_ 1 := (fun x v => Host.reduce IntOp.andi x v reducesTo_S2x1600000_S_d0_1 h_S_) main_v65 main_c_25
  let main_v67 : IVec S_ 1 := andi main_v63 main_v66
  fn_part4 (F := F) main_arg1 main_v67

def fn_part2 {F : FTy → Type} [FloatOps F] (main_arg1 : IVec S2x1600000 32) (main_arg8 : FVec F S128x64 .f32) (main_arg9 : FVec F S64 .f32) (main_arg10 : FVec F S64x64 .f32) (main_arg11 : FVec F S64 .f32) (main_arg12 : FVec F S128x64 .f32) (main_arg13 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_arg13 main_v48 main_v49 main_v50

def fn_part1 {F : FTy → Type} [FloatOps F] (main_arg1 : IVec S2x1600000 32) (main_arg5 : FVec F S64 .f32) (main_arg6 : FVec F S128x64 .f32) (main_arg7 : FVec F S64 .f32) (main_arg8 : FVec F S128x64 .f32) (main_arg9 : FVec F S64 .f32) (main_arg10 : FVec F S64x64 .f32) (main_arg11 : FVec F S64 .f32) (main_arg12 : FVec F S128x64 .f32) (main_arg13 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S100000x128 .f32) (main_arg1 : IVec S2x1600000 32) (main_arg2 : FVec F S1600000x64 .f32) (main_arg3 : FVec F S1x64 .f32) (main_arg4 : FVec F S128x64 .f32) (main_arg5 : FVec F S64 .f32) (main_arg6 : FVec F S128x64 .f32) (main_arg7 : FVec F S64 .f32) (main_arg8 : FVec F S128x64 .f32) (main_arg9 : FVec F S64 .f32) (main_arg10 : FVec F S64x64 .f32) (main_arg11 : FVec F S64 .f32) (main_arg12 : FVec F S128x64 .f32) (main_arg13 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S1600000x64 : Shape := ⟨2, ![1600000, 64]⟩
abbrev S1x64 : Shape := ⟨2, ![1, 64]⟩
abbrev S128x64 : Shape := ⟨2, ![128, 64]⟩
abbrev S64 : Shape := ⟨1, ![64]⟩
abbrev S64x64 : Shape := ⟨2, ![64, 64]⟩
abbrev S128x256 : Shape := ⟨2, ![128, 256]⟩
abbrev S256 : Shape := ⟨1, ![256]⟩
abbrev S1x256 : Shape := ⟨2, ![1, 256]⟩
abbrev S100000x256 : Shape := ⟨2, ![100000, 256]⟩
abbrev S2000x128 : Shape := ⟨2, ![2000, 128]⟩
abbrev S2000x256 : Shape := ⟨2, ![2000, 256]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S4000x64 : Shape := ⟨2, ![4000, 64]⟩
abbrev S2000x64 : Shape := ⟨2, ![2000, 64]⟩

abbrev nBuf : Space → Nat
  | .hbm => 102
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x64, .f32⟩
  | .hbm, ⟨3, _⟩ => ⟨S1x64, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S128x64, .f32⟩
  | .hbm, ⟨13, _⟩ => ⟨S64, .f32⟩
  | .hbm, ⟨14, _⟩ => ⟨S128x256, .f32⟩
  | .hbm, ⟨15, _⟩ => ⟨S256, .f32⟩
  | .hbm, ⟨16, _⟩ => ⟨S1x256, .f32⟩
  | .hbm, ⟨17, _⟩ => ⟨S100000x256, .f32⟩
  | .hbm, ⟨18, _⟩ => ⟨S100000x64, .f32⟩
  | .hbm, ⟨19, _⟩ => ⟨S100000x64, .f32⟩
  | .hbm, ⟨20, _⟩ => ⟨S100000x64, .f32⟩
  | .hbm, ⟨21, _⟩ => ⟨S100000x64, .f32⟩
  | .hbm, ⟨22, _⟩ => ⟨S1x1600000, .i32⟩
  | .hbm, ⟨23, _⟩ => ⟨S1600000, .i32⟩
  | .hbm, ⟨24, _⟩ => ⟨S1x1600000, .i32⟩
  | .hbm, ⟨25, _⟩ => ⟨S1600000, .i32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1, .i32⟩
  | .hbm, ⟨35, _⟩ => ⟨S_, .i32⟩
  | .hbm, ⟨36, _⟩ => ⟨S1600000x1, .i32⟩
  | .hbm, ⟨37, _⟩ => ⟨S1600000x1, .i1⟩
  | .hbm, ⟨38, _⟩ => ⟨S1x1, .i32⟩
  | .hbm, ⟨39, _⟩ => ⟨S1600000x1, .i32⟩
  | .hbm, ⟨40, _⟩ => ⟨S1600000x1, .i1⟩
  | .hbm, ⟨41, _⟩ => ⟨S1600000x1, .i1⟩
  | .hbm, ⟨42, _⟩ => ⟨S_, .i1⟩
  | .hbm, ⟨43, _⟩ => ⟨S1600000, .i1⟩
  | .hbm, ⟨44, _⟩ => ⟨S1600000x64, .f32⟩
  | .hbm, ⟨45, _⟩ => ⟨S1600000x64, .i1⟩
  | .hbm, ⟨46, _⟩ => ⟨S_, .f32⟩
  | .hbm, ⟨47, _⟩ => ⟨S1600000x64, .f32⟩
  | .hbm, ⟨48, _⟩ => ⟨S1600000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1, .i32⟩
  | .hbm, ⟨58, _⟩ => ⟨S_, .i32⟩
  | .hbm, ⟨59, _⟩ => ⟨S1600000x1, .i32⟩
  | .hbm, ⟨60, _⟩ => ⟨S1600000x1, .i1⟩
  | .hbm, ⟨61, _⟩ => ⟨S1x1, .i32⟩
  | .hbm, ⟨62, _⟩ => ⟨S1600000x1, .i32⟩
  | .hbm, ⟨63, _⟩ => ⟨S1600000x1, .i1⟩
  | .hbm, ⟨64, _⟩ => ⟨S1600000x1, .i1⟩
  | .hbm, ⟨65, _⟩ => ⟨S_, .i1⟩
  | .hbm, ⟨66, _⟩ => ⟨S1600000, .i1⟩
  | .hbm, ⟨67, _⟩ => ⟨S1600000x64, .f32⟩
  | .hbm, ⟨68, _⟩ => ⟨S1600000x64, .i1⟩
  | .hbm, ⟨69, _⟩ => ⟨S_, .f32⟩
  | .hbm, ⟨70, _⟩ => ⟨S1600000x64, .f32⟩
  | .hbm, ⟨71, _⟩ => ⟨S1600000x64, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1, .i32⟩
  | .hbm, ⟨81, _⟩ => ⟨S_, .i32⟩
  | .hbm, ⟨82, _⟩ => ⟨S1600000x1, .i32⟩
  | .hbm, ⟨83, _⟩ => ⟨S1600000x1, .i1⟩
  | .hbm, ⟨84, _⟩ => ⟨S1x1, .i32⟩
  | .hbm, ⟨85, _⟩ => ⟨S1600000x1, .i32⟩
  | .hbm, ⟨86, _⟩ => ⟨S1600000x1, .i1⟩
  | .hbm, ⟨87, _⟩ => ⟨S1600000x1, .i1⟩
  | .hbm, ⟨88, _⟩ => ⟨S_, .i1⟩
  | .hbm, ⟨89, _⟩ => ⟨S1600000, .i1⟩
  | .hbm, ⟨90, _⟩ => ⟨S1600000x64, .f32⟩
  | .hbm, ⟨91, _⟩ => ⟨S1600000x64, .i1⟩
  | .hbm, ⟨92, _⟩ => ⟨S_, .f32⟩
  | .hbm, ⟨93, _⟩ => ⟨S1600000x64, .f32⟩
  | .hbm, ⟨94, _⟩ => ⟨S1600000x64, .f32⟩
  | .hbm, ⟨95, _⟩ => ⟨S1x64, .f32⟩
  | .hbm, ⟨96, _⟩ => ⟨S1600000x64, .f32⟩
  | .hbm, ⟨97, _⟩ => ⟨S_, .f32⟩
  | .hbm, ⟨98, _⟩ => ⟨S100000x64, .f32⟩
  | .hbm, ⟨99, _⟩ => ⟨S1600000x1, .i32⟩
  | .hbm, ⟨100, _⟩ => ⟨S100000x64, .f32⟩
  | .hbm, ⟨101, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S4000x64, .f32⟩
  | .local _ .vmem, ⟨7, _⟩ => ⟨S4000x64, .f32⟩
  | .local _ .vmem, ⟨8, _⟩ => ⟨S64x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v12 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v13 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_cst : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S128x64_S128x64_S128x64_S128x64_S128x256_d1 : Shape.Concatenates [S128x64, S128x64, S128x64, S128x64] S128x256 1
  concatenates_S64_S64_S64_S64_S256_d0 : Shape.Concatenates [S64, S64, S64, S64] S256 0
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  slices_S100000x256_S100000x64_0_0 : S100000x256.Slices ![0, 0] S100000x64
  slices_S100000x256_S100000x64_0_64 : S100000x256.Slices ![0, 64] S100000x64
  slices_S100000x256_S100000x64_0_128 : S100000x256.Slices ![0, 128] S100000x64
  slices_S100000x256_S100000x64_0_192 : S100000x256.Slices ![0, 192] S100000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  shapeCasts_S4000x64_S4000x64 : S4000x64.ShapeCasts S4000x64
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  dot_S2000x128_S128x256_S2000x256_1_0_0_1_n_n_wf : DotDims.WF S2000x128 S128x256 S2000x256 [1] [0] [0] [1] [] []
  gather_S100000x64_S1600000x1_S1600000x64_1_0_n_n_0_1_164_wf : GatherDims.WF S100000x64 S1600000x1 S1600000x64 [1] [0] [] [0] [] 1 ![1, 64]
  dot_S4000x64_S64x64_S4000x64_1_0_0_1_n_n_wf : DotDims.WF S4000x64 S64x64 S4000x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S1600000x64.size a
  hwx1_0 : ∀ i : grid1.Coords, EltTy.bits .f32 = 32 ∨ (Rect.block (s := S1600000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S1600000x64.size a
  hwx1_3 : ∀ i : grid1.Coords, EltTy.bits .f32 = 32 ∨ (Rect.block (s := S1600000x64) S4000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S1600000x64.size a
  hwx1_4 : ∀ i : grid1.Coords, EltTy.bits .f32 = 32 ∨ (Rect.block (s := S1600000x64) S4000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S1600000x64.size a
  hwx1_5 : ∀ i : grid1.Coords, EltTy.bits .f32 = 32 ∨ (Rect.block (s := S1600000x64) S4000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S1600000x64.size a
  hwx1_6 : ∀ i : grid1.Coords, EltTy.bits .f32 = 32 ∨ (Rect.block (s := S1600000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S4000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S4000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v14) S4000x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v16) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v19) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x64 : Shape := ⟨2, ![1600000, 64]⟩
abbrev S1x64 : Shape := ⟨2, ![1, 64]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x64, .f32⟩
  | .hbm, ⟨3, _⟩ => ⟨S1x64, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S128x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S100000x64, .f32⟩
  | .hbm, ⟨19, _⟩ => ⟨S1x64, .f32⟩
  | .hbm, ⟨20, _⟩ => ⟨S100000x64, .f32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S1600000x64, .f32⟩
  | .hbm, ⟨31, _⟩ => ⟨S1x64, .f32⟩
  | .hbm, ⟨32, _⟩ => ⟨S1600000x64, .f32⟩
  | .hbm, ⟨33, _⟩ => ⟨S1600000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x64, .f32⟩
  | .hbm, ⟨53, _⟩ => ⟨S1600000x64, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S1600000x64, .f32⟩
  | .hbm, ⟨58, _⟩ => ⟨S1600000x64, .f32⟩
  | .hbm, ⟨59, _⟩ => ⟨S_, .f32⟩
  | .hbm, ⟨60, _⟩ => ⟨S1600000x64, .f32⟩
  | .hbm, ⟨61, _⟩ => ⟨S1600000x64, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_1 : Ref sig .tc := ⟨.hbm, 43, rfl⟩
abbrev main_v27 : Ref sig .tc := ⟨.hbm, 44, rfl⟩
abbrev main_v28 : Ref sig .tc := ⟨.hbm, 45, rfl⟩
abbrev main_c_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_c_4 : Ref sig .tc := ⟨.hbm, 62, rfl⟩
abbrev main_v42 : Ref sig .tc := ⟨.hbm, 63, rfl⟩
abbrev main_v43 : Ref sig .tc := ⟨.hbm, 64, rfl⟩
abbrev main_c_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call0_cst : Ref sig .tc := ⟨.hbm, 81, rfl⟩
abbrev main_call0_v0 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1600000x64_0_1 : S1x64.BroadcastsInDim S1600000x64 (![0, 1] : Fin 2 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  dot_S1600000x64_S64x64_S1600000x64_1_0_0_1_n_n_wf : DotDims.WF S1600000x64 S64x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.K.R0.lean ====
/-
  The first kernel region (the fused projection), at any float instance and at a PARAMETER `V`: the contents of the
  TensorCore's buffers when the region is entered. The grid has 50 points; point `t` sees rows 2000·t … 2000·t + 1999
  of the node features (window 0), the whole 128 × 256 matrix of the four weight matrices side by side (window 1) and
  the whole 1 × 256 row of the four biases (window 2), the last two fetched once and kept, and writes rows
  2000·t … 2000·t + 1999 of the 100000 × 256 projection (window 3). The body multiplies the feature block by the
  weights (both first narrowed to the short float format) and adds the bias row to every row of the product; it also
  reads the output block before overwriting all of it, a read whose value is not used.
  Stated here: what the body leaves in the output block as a function of the three input blocks, the body's triple,
  the pipeline's proof data, and the obligation the launch theorem asks of the body at every point.
-/
import proofs.«408360_j40956808135194_1_alg».proof.Proof.Gen.Kernel.Launch
import proofs.«408360_j40956808135194_1_alg».proof.Proof.Gen.Kernel.Skeleton
import proofs.«408360_j40956808135194_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a point -/

/-- Window `w`'s block at point `t`, read off the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds that window's block when the body starts, whether the pipeline fetched it
    at this point or kept it from an earlier one: for any proof data over the arrays of `V` whose body leaves the block
    in place. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in the output block -/

/-- The rectangles the body touches: each block whole. -/
abbrev rows0 : Rect S2000x128 := Rect.unit (s := S2000x128) ![0, 0] S2000x128.size inb_S2000x128_S2000x128_0_0
abbrev wts0 : Rect S128x256 := Rect.unit (s := S128x256) ![0, 0] S128x256.size inb_S128x256_S128x256_0_0
abbrev bias0 : Rect S1x256 := Rect.unit (s := S1x256) ![0, 0] S1x256.size inb_S1x256_S1x256_0_0
abbrev whole0 : Rect S2000x256 := Rect.unit (s := S2000x256) ![0, 0] S2000x256.size inb_S2000x256_S2000x256_0_0

/-- The output block after the body: its single store, of (feature block · weights) + bias row. -/
def proj0 (x : Vec F S2000x128 .f32) (w : Vec F S128x256 .f32) (b : Vec F S1x256 .f32) : Vec F S2000x256 .f32 :=
  View.canon [⟨whole0, k0_pay1 (View.ld x rows0) (View.ld w wts0) (View.ld b bias0)⟩]

/-- That store covers the block. -/
theorem proj0_cover (p0 : Vec F S2000x256 .f32) (y : S2000x256.Idx) :
    ∃ pc ∈ ([⟨whole0, p0⟩] : List (View.Piece (Elt F) S2000x256 .f32)), y ∈ pc.1.set :=
  View.cover_of_tiled [⟨whole0, p0⟩] S2000x256.size (by rfl) y

/-! ## The body's triple -/

set_option maxHeartbeats 1000000 in
/-- On whole staging memrefs, the inputs at contents `x`, `w`, `b` and the output at anything, the body runs to its
    continuation with the inputs as they were and the output at `proj0 x w b`. -/
theorem body0_triple (c : Dev nD) (E : Set ℕ) (i : grid0.Coords) (arg1 : Memref sig .tc .vmem S2000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S2000x256 .f32) (harg4 : arg4.IsWhole)
    (x : Vec F S2000x128 .f32) (w : Vec F S128x256 .f32) (b : Vec F S1x256 .f32) (K : PUnit → sProp 𝕄) :
    iprop(owns (c : Thread nD τ) arg1 fullShare x ∗ owns (c : Thread nD τ) arg2 fullShare w ∗ owns (c : Thread nD τ) arg3 fullShare b ∗ (∃ d, owns (c : Thread nD τ) arg4 fullShare d)
        ∗ (iprop(owns (c : Thread nD τ) arg1 fullShare x ∗ owns (c : Thread nD τ) arg2 fullShare w ∗ owns (c : Thread nD τ) arg3 fullShare b ∗ owns (c : Thread nD τ) arg4 fullShare (proj0 x w b)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (proj0_cover _)

/-! ## The pipeline's proof data -/

/-- The proof data of the first pipeline on core `c`: its arrays as `V` has them; after the body at point `t` each
    input's buffer still at its block and the output's at `proj0` of the three blocks; the invariant is the untouched
    rest (the other scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => proj0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = proj0 (blk0 V c 0 t) (blk0 V c 1 t) (blk0 V c 2 t) := by dsimp only [dat0]

theorem dat0_before0 (c : Dev nD) (t : Fin cfg0.N) (d) : (dat0 V c).before 0 t d = blk0 V c 0 t :=
  held0_0 V (dat0 V c) (dat0_A V c 0) (dat0_after0 V c) t d
theorem dat0_before1 (c : Dev nD) (t : Fin cfg0.N) (d) : (dat0 V c).before 1 t d = blk0 V c 1 t :=
  held0_1 V (dat0 V c) (dat0_A V c 1) (dat0_after1 V c) t d
theorem dat0_before2 (c : Dev nD) (t : Fin cfg0.N) (d) : (dat0 V c).before 2 t d = blk0 V c 2 t :=
  held0_2 V (dat0 V c) (dat0_A V c 2) (dat0_after2 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and what the
    core owes pass through unread. -/
theorem body0_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body0_triple c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's obligation on the body, at every point. -/
theorem body0_obligation (c : Dev nD) : BodyObligation (dat0 (F := F) V c) (defs₀ (F := F)) Variants.none () Set.univ := fun t => by
  rw [bigSep_W0, bigSep_W0]
  exact body0_at V c t

end Cert.Kernel.Fr

end
-- ==== Proof.K.R1.lean ====
/-
  The second kernel region (the gated message of every edge), at any float instance and at a PARAMETER `V`: the
  contents of the TensorCore's buffers when the region is entered. The grid has 400 points; point `t` sees rows
  4000·t … 4000·t + 3999 of the edge attributes (window 0), the whole 64 × 64 edge weight matrix (window 1) and the
  whole 1 × 64 edge bias row (window 2), both fetched once and kept, and the same 4000 rows of the three gathered
  node projections: the key at the edge's target, the query at its source, the value at its source (windows 3, 4, 5);
  it writes those 4000 rows of the messages (window 6). The body projects the attribute block by the edge weights
  (both first narrowed to the short float format), adds the bias row, adds the key and query blocks, takes the
  logistic function entry by entry and multiplies by the value block; it also reads the output block before
  overwriting all of it, a read whose value is not used.
  Stated here: what the body leaves in the output block as a function of the six input blocks, the body's triple,
  the pipeline's proof data, and the obligation the launch theorem asks of the body at every point.
-/
import proofs.«408360_j40956808135194_1_alg».proof.Proof.Gen.Kernel.Launch
import proofs.«408360_j40956808135194_1_alg».proof.Proof.Gen.Kernel.Skeleton
import proofs.«408360_j40956808135194_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a point -/

/-- Window `w`'s block at point `t`, read off the array the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds that window's block when the body starts, whether the pipeline fetched it
    at this point or kept it from an earlier one: for any proof data over the arrays of `V` whose body leaves the block
    in place. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem held1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem held1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem held1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the output block -/

/-- The rectangles the body touches: each block whole. -/
abbrev rows1 : Rect S4000x64 := Rect.unit (s := S4000x64) ![0, 0] S4000x64.size inb_S4000x64_S4000x64_0_0
abbrev wts1 : Rect S64x64 := Rect.unit (s := S64x64) ![0, 0] S64x64.size inb_S64x64_S64x64_0_0
abbrev bias1 : Rect S1x64 := Rect.unit (s := S1x64) ![0, 0] S1x64.size inb_S1x64_S1x64_0_0

/-- The output block after the body: its single store, of logistic(key + query + (attributes · weights + bias)) · value. -/
def msg1 (ea : Vec F S4000x64 .f32) (w : Vec F S64x64 .f32) (b : Vec F S1x64 .f32) (kd qs vs : Vec F S4000x64 .f32) : Vec F S4000x64 .f32 :=
  View.canon [⟨rows1, k1_pay1 (View.ld ea rows1) (View.ld w wts1) (View.ld b bias1) (View.ld kd rows1) (View.ld qs rows1) (View.ld vs rows1)⟩]

/-- That store covers the block. -/
theorem msg1_cover (p0 : Vec F S4000x64 .f32) (y : S4000x64.Idx) :
    ∃ pc ∈ ([⟨rows1, p0⟩] : List (View.Piece (Elt F) S4000x64 .f32)), y ∈ pc.1.set :=
  View.cover_of_tiled [⟨rows1, p0⟩] S4000x64.size (by rfl) y

/-! ## The body's triple -/

set_option maxHeartbeats 1000000 in
/-- On whole staging memrefs, the inputs at contents `ea`, `w`, `b`, `kd`, `qs`, `vs` and the output at anything, the body
    runs to its continuation with the inputs as they were and the output at `msg1` of them. -/
theorem body1_triple (c : Dev nD) (E : Set ℕ) (i : grid1.Coords) (arg1 : Memref sig .tc .vmem S4000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S4000x64 .f32) (harg4 : arg4.IsWhole) (arg5 : Memref sig .tc .vmem S4000x64 .f32) (harg5 : arg5.IsWhole) (arg6 : Memref sig .tc .vmem S4000x64 .f32) (harg6 : arg6.IsWhole) (arg7 : Memref sig .tc .vmem S4000x64 .f32) (harg7 : arg7.IsWhole)
    (ea : Vec F S4000x64 .f32) (w : Vec F S64x64 .f32) (b : Vec F S1x64 .f32) (kd qs vs : Vec F S4000x64 .f32) (K : PUnit → sProp 𝕄) :
    iprop(owns (c : Thread nD τ) arg1 fullShare ea ∗ owns (c : Thread nD τ) arg2 fullShare w ∗ owns (c : Thread nD τ) arg3 fullShare b
        ∗ owns (c : Thread nD τ) arg4 fullShare kd ∗ owns (c : Thread nD τ) arg5 fullShare qs ∗ owns (c : Thread nD τ) arg6 fullShare vs ∗ (∃ d, owns (c : Thread nD τ) arg7 fullShare d)
        ∗ (iprop(owns (c : Thread nD τ) arg1 fullShare ea ∗ owns (c : Thread nD τ) arg2 fullShare w ∗ owns (c : Thread nD τ) arg3 fullShare b
            ∗ owns (c : Thread nD τ) arg4 fullShare kd ∗ owns (c : Thread nD τ) arg5 fullShare qs ∗ owns (c : Thread nD τ) arg6 fullShare vs
            ∗ owns (c : Thread nD τ) arg7 fullShare (msg1 ea w b kd qs vs)) -∗ K ⟨⟩))
      ⊢ wp frame (wpE (defs₀ (F := F)) Variants.none c none) E (cc1__edge_kernel i arg1 harg1 arg2 harg2 arg3 harg3 arg4 harg4 arg5 harg5 arg6 harg6 arg7 harg7) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (msg1_cover _)

/-! ## The pipeline's proof data -/

/-- The proof data of the second pipeline on core `c`: its arrays as `V` has them; after the body at point `t` each
    input's buffer still at its block and the output's at `msg1` of the six blocks; the invariant is the untouched rest
    (the other scoped buffers and the generator register); nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => msg1 (blk1 V c 0 t) (blk1 V c 1 t) (blk1 V c 2 t) (blk1 V c 3 t) (blk1 V c 4 t) (blk1 V c 5 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = msg1 (blk1 V c 0 t) (blk1 V c 1 t) (blk1 V c 2 t) (blk1 V c 3 t) (blk1 V c 4 t) (blk1 V c 5 t) := by dsimp only [dat1]

theorem dat1_before0 (c : Dev nD) (t : Fin cfg1.N) (d) : (dat1 V c).before 0 t d = blk1 V c 0 t :=
  held1_0 V (dat1 V c) (dat1_A V c 0) (dat1_after0 V c) t d
theorem dat1_before1 (c : Dev nD) (t : Fin cfg1.N) (d) : (dat1 V c).before 1 t d = blk1 V c 1 t :=
  held1_1 V (dat1 V c) (dat1_A V c 1) (dat1_after1 V c) t d
theorem dat1_before2 (c : Dev nD) (t : Fin cfg1.N) (d) : (dat1 V c).before 2 t d = blk1 V c 2 t :=
  held1_2 V (dat1 V c) (dat1_A V c 2) (dat1_after2 V c) t d
theorem dat1_before3 (c : Dev nD) (t : Fin cfg1.N) (d) : (dat1 V c).before 3 t d = blk1 V c 3 t :=
  held1_3 V (dat1 V c) (dat1_A V c 3) (dat1_after3 V c) t d
theorem dat1_before4 (c : Dev nD) (t : Fin cfg1.N) (d) : (dat1 V c).before 4 t d = blk1 V c 4 t :=
  held1_4 V (dat1 V c) (dat1_A V c 4) (dat1_after4 V c) t d
theorem dat1_before5 (c : Dev nD) (t : Fin cfg1.N) (d) : (dat1 V c).before 5 t d = blk1 V c 5 t :=
  held1_5 V (dat1 V c) (dat1_A V c 5) (dat1_after5 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the triple applies; the invariant and what the
    core owes pass through unread. -/
theorem body1_at (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before0, dat1_before1, dat1_before2, dat1_before3, dat1_before4, dat1_before5]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body1_triple c Set.univ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorem's obligation on the body, at every point. -/
theorem body1_obligation (c : Dev nD) : BodyObligation (dat1 (F := F) V c) (defs₀ (F := F)) Variants.none () Set.univ := fun t => by
  rw [bigSep_W1, bigSep_W1]
  exact body1_at V c t

end Cert.Kernel.Fr

end
-- ==== Proof.K.R2.lean ====
/-
  The third kernel region (the final activation), at any float instance and at a PARAMETER `V`: the contents of
  the TensorCore's buffers when the region is entered. The grid has 50 points; point `t` sees rows
  2000·t … 2000·t + 1999 of the aggregated messages and of the skip projection (two input windows) and writes the
  same rows of the result (one output window). The body adds its two blocks entry by entry and takes the maximum
  with zero; it also reads the output block before overwriting all of it, a read whose value is not used.
  Stated here: what the body leaves in the output block as a function of the two input blocks, the body's triple,
  the pipeline's proof data, and the obligation the launch theorem asks of the body at every point.
-/
import proofs.«408360_j40956808135194_1_alg».proof.Proof.Gen.Kernel.Launch
import proofs.«408360_j40956808135194_1_alg».proof.Proof.Gen.Kernel.Skeleton
import proofs.«408360_j40956808135194_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a point -/

/-- Window `w`'s block at point `t`, read off the array the region finds. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds that window's block when the body starts, whether the pipeline fetched it
    at this point or kept it: for any proof data over the arrays of `V` whose body leaves the block in place. -/
theorem held2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem held2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What the body leaves in the output block -/

/-- The one rectangle the body touches: the whole 2000 × 64 block. -/
abbrev whole2 : Rect S2000x64 := Rect.unit (s := S2000x64) ![0, 0] S2000x64.size inb_S2000x64_S2000x64_0_0

/-- The output block after the body: its single store, of max(agg + skip, 0) over the two input blocks. -/
def relu2 (agg skip : Vec F S2000x64 .f32) : Vec F S2000x64 .f32 :=
  View.canon [⟨whole2, k2_pay1 (View.ld agg whole2) (View.ld skip whole2)⟩]

/-- That store covers the block. -/
theorem relu2_cover (p0 : Vec F S2000x64 .f32) (y : S2000x64.Idx) :
    ∃ pc ∈ ([⟨whole2, p0⟩] : List (View.Piece (Elt F) S2000x64 .f32)), y ∈ pc.1.set :=
  View.cover_of_tiled [⟨whole2, p0⟩] S2000x64.size (by rfl) y

/-! ## The body's triple -/

set_option maxHeartbeats 1000000 in
/-- On whole staging memrefs, the inputs at contents `agg`, `skip` and the output at anything, the body runs to its
    continuation with the inputs as they were and the output at `relu2 agg skip`. -/
theorem body2_triple (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole)
    (agg skip : Vec F S2000x64 .f32) (K : PUnit → sProp 𝕄) :
    iprop(owns (c : Thread nD τ) arg1 fullShare agg ∗ owns (c : Thread nD τ) arg2 fullShare skip ∗ (∃ d, owns (c : Thread nD τ) arg3 fullShare d)
        ∗ (iprop(owns (c : Thread nD τ) arg1 fullShare agg ∗ owns (c : Thread nD τ) arg2 fullShare skip ∗ owns (c : Thread nD τ) arg3 fullShare (relu2 agg skip)) -∗ K ⟨⟩))
      ⊢ wp frame (wpE (defs₀ (F := F)) Variants.none c none) E (cc2__finalize_kernel i arg1 harg1 arg2 harg2 arg3 harg3) K := by
  simp only [cc2__finalize_kernel_eq_skeleton]; unfold cc2__finalize_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (relu2_cover _)

/-! ## The pipeline's proof data -/

/-- The proof data of the third pipeline on core `c`: its arrays as `V` has them; after the body at point `t` each
    input's buffer still at its block and the output's at `relu2` of the two blocks; the invariant is the untouched rest
    (the other scoped buffers and the generator register); nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => relu2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = relu2 (blk2 V c 0 t) (blk2 V c 1 t) := by dsimp only [dat2]

theorem dat2_before0 (c : Dev nD) (t : Fin cfg2.N) (d) : (dat2 V c).before 0 t d = blk2 V c 0 t :=
  held2_0 V (dat2 V c) (dat2_A V c 0) (dat2_after0 V c) t d
theorem dat2_before1 (c : Dev nD) (t : Fin cfg2.N) (d) : (dat2 V c).before 1 t d = blk2 V c 1 t :=
  held2_1 V (dat2 V c) (dat2_A V c 1) (dat2_after1 V c) t d

/-! ## The body obligation at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the triple applies; the invariant and what the
    core owes pass through unread. -/
theorem body2_at (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [dat2_before0, dat2_before1]
  rw [show (dat2 V c).Φ t.succ = (dat2 V c).Φ t.castSucc from rfl,
    show (dat2 V c).owesAt () t.succ = (dat2 V c).owesAt () t.castSucc from rfl,
    dat2_after0, dat2_after1, dat2_after2]
  iintro ⟨HΦ, Ho, ⟨%d0, H0⟩, ⟨%d1, H1⟩, ⟨%d2, H2⟩⟩
  iapply (body2_triple c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's obligation on the body, at every point. -/
theorem body2_obligation (c : Dev nD) : BodyObligation (dat2 (F := F) V c) (defs₀ (F := F)) Variants.none () Set.univ := fun t => by
  rw [bigSep_W2, bigSep_W2]
  exact body2_at V c t

end Cert.Kernel.Fr

end
-- ==== Proof.K.Run.lean ====
/-
  The whole run of @main, at any float instance: the contents of the TensorCore's unscoped buffers at each of the
  eleven boundaries between @main's ten items (host stretch, projection region, five host stretches, edge region,
  host stretch, activation region), as a fold from the launch memory; the three pipelines' proof data, each at the
  contents its region is entered with; each region as a segment that takes every unscoped buffer at one boundary's
  contents to the next boundary's; and the launch over the ten segments, whose post reads EVERY unscoped buffer of
  the final memory at the last boundary's contents. From that one post follow both that the fourteen arguments end
  as launched (no host operation and no region writes one) and what the result buffer holds.
-/
import proofs.«408360_j40956808135194_1_alg».proof.Proof.Gen.Kernel.Launch
import proofs.«408360_j40956808135194_1_alg».proof.Proof.Gen.Kernel.Skeleton
import proofs.«408360_j40956808135194_1_alg».proof.Proof.Gen.Kernel.Points
import proofs.«408360_j40956808135194_1_alg».proof.Proof.Gen.Kernel.Regions
import proofs.«408360_j40956808135194_1_alg».proof.Proof.K.R0
import proofs.«408360_j40956808135194_1_alg».proof.Proof.K.R1
import proofs.«408360_j40956808135194_1_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the weights side by side, the biases end to end as one row): the projection region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem left0 (c : Dev nD) (w : Fin cfg0.W) : (dat0 (V1 m ρ) c).arrAt w cfg0.N = V2 m ρ c (Pipeline.arrRef spec0 w) :=
  (W2_arr m ρ c w).symm
theorem kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the four column slices of the projection and the two rows of the edge list. -/
abbrev W3 : Dev nD → Valuation τ sig (Elt F) := fun c => StableHlo.after hostOps1 (W2 m ρ c)
/-- After the key rows taken at the edges' targets. -/
abbrev W4 : Dev nD → Valuation τ sig (Elt F) := fun c => StableHlo.after hostOps1_1 (W3 m ρ c)
/-- After the query rows taken at the edges' sources. -/
abbrev W5 : Dev nD → Valuation τ sig (Elt F) := fun c => StableHlo.after hostOps1_2 (W4 m ρ c)
/-- After the value rows taken at the edges' sources. -/
abbrev W6 : Dev nD → Valuation τ sig (Elt F) := fun c => StableHlo.after hostOps1_3 (W5 m ρ c)
/-- After the edge bias reshaped to a row: the edge region's entry. -/
abbrev W7 : Dev nD → Valuation τ sig (Elt F) := fun c => StableHlo.after hostOps1_4 (W6 m ρ c)
abbrev V7 : (c : Dev nD) → (b : Ref sig .tc) → Buf (Elt F) ((c : Thread nD τ).loc b) := fun c b => W7 m ρ c b
/-- At the edge region's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem left1 (c : Dev nD) (w : Fin cfg1.W) : (dat1 (V7 m ρ) c).arrAt w cfg1.N = V8 m ρ c (Pipeline.arrRef spec1 w) :=
  (W8_arr m ρ c w).symm
theorem kept1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After the messages are summed into their target rows: the activation region's entry. -/
abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b
/-- At the activation region's exit: the end of @main. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem left2 (c : Dev nD) (w : Fin cfg2.W) : (dat2 (V9 m ρ) c).arrAt w cfg2.N = V10 m ρ c (Pipeline.arrRef spec2 w) :=
  (W10_arr m ρ c w).symm
theorem kept2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-! ## A buffer no item writes holds its launch contents at the end

A region leaves each of its INPUT arrays as entered, so at a region's exit every buffer but the region's one output
array is as at its entry; a host stretch leaves every buffer it does not write. -/

theorem W2_keep (c : Dev nD) (b : Ref sig .tc) (hb : b ≠ main_v3) : W2 m ρ c (Proc.devRef .tc b) = W1 m ρ c (Proc.devRef .tc b) := by
  by_cases h : ∃ w, Pipeline.arrRef spec0 w = b
  · obtain ⟨w, rfl⟩ := h
    rw [W2_arr]
    match w, hb with
    | ⟨0, _⟩, _ => exact ((dat0 (V1 m ρ) c).arrAt_in 0 rfl _).trans (dat0_A (V1 m ρ) c 0)
    | ⟨1, _⟩, _ => exact ((dat0 (V1 m ρ) c).arrAt_in 1 rfl _).trans (dat0_A (V1 m ρ) c 1)
    | ⟨2, _⟩, _ => exact ((dat0 (V1 m ρ) c).arrAt_in 2 rfl _).trans (dat0_A (V1 m ρ) c 2)
    | ⟨3, _⟩, hb => exact absurd rfl hb
  · exact W2_of_ne m ρ c b fun w e => h ⟨w, e⟩
theorem W8_keep (c : Dev nD) (b : Ref sig .tc) (hb : b ≠ main_v16) : W8 m ρ c (Proc.devRef .tc b) = W7 m ρ c (Proc.devRef .tc b) := by
  by_cases h : ∃ w, Pipeline.arrRef spec1 w = b
  · obtain ⟨w, rfl⟩ := h
    rw [W8_arr]
    match w, hb with
    | ⟨0, _⟩, _ => exact ((dat1 (V7 m ρ) c).arrAt_in 0 rfl _).trans (dat1_A (V7 m ρ) c 0)
    | ⟨1, _⟩, _ => exact ((dat1 (V7 m ρ) c).arrAt_in 1 rfl _).trans (dat1_A (V7 m ρ) c 1)
    | ⟨2, _⟩, _ => exact ((dat1 (V7 m ρ) c).arrAt_in 2 rfl _).trans (dat1_A (V7 m ρ) c 2)
    | ⟨3, _⟩, _ => exact ((dat1 (V7 m ρ) c).arrAt_in 3 rfl _).trans (dat1_A (V7 m ρ) c 3)
    | ⟨4, _⟩, _ => exact ((dat1 (V7 m ρ) c).arrAt_in 4 rfl _).trans (dat1_A (V7 m ρ) c 4)
    | ⟨5, _⟩, _ => exact ((dat1 (V7 m ρ) c).arrAt_in 5 rfl _).trans (dat1_A (V7 m ρ) c 5)
    | ⟨6, _⟩, hb => exact absurd rfl hb
  · exact W8_of_ne m ρ c b fun w e => h ⟨w, e⟩
theorem W10_keep (c : Dev nD) (b : Ref sig .tc) (hb : b ≠ main_v20) : W10 m ρ c (Proc.devRef .tc b) = W9 m ρ c (Proc.devRef .tc b) := by
  by_cases h : ∃ w, Pipeline.arrRef spec2 w = b
  · obtain ⟨w, rfl⟩ := h
    rw [W10_arr]
    match w, hb with
    | ⟨0, _⟩, _ => exact ((dat2 (V9 m ρ) c).arrAt_in 0 rfl _).trans (dat2_A (V9 m ρ) c 0)
    | ⟨1, _⟩, _ => exact ((dat2 (V9 m ρ) c).arrAt_in 1 rfl _).trans (dat2_A (V9 m ρ) c 1)
    | ⟨2, _⟩, hb => exact absurd rfl hb
  · exact W10_of_ne m ρ c b fun w e => h ⟨w, e⟩

/-- A buffer that is neither a region's output nor written by a host stretch ends at its launch contents. -/
theorem W10_launch (c : Dev nD) (b : Ref sig .tc) (h3 : b ≠ main_v3) (h16 : b ≠ main_v16) (h20 : b ≠ main_v20)
    (h0 : b ∉ hostOps0_W) (h1 : b ∉ hostOps1_W) (h11 : b ∉ hostOps1_1_W) (h12 : b ∉ hostOps1_2_W) (h13 : b ∉ hostOps1_3_W)
    (h14 : b ∉ hostOps1_4_W) (h2 : b ∉ hostOps2_W) :
    W10 m ρ c (Proc.devRef .tc b) = m ((c : Thread nD τ).loc b) :=
  calc W10 m ρ c (Proc.devRef .tc b)
    _ = W9 m ρ c (Proc.devRef .tc b) := W10_keep m ρ c b h20
    _ = W8 m ρ c (Proc.devRef .tc b) := StableHlo.after_of_writes_sub hostOps2 _ hostOps2_writes h2
    _ = W7 m ρ c (Proc.devRef .tc b) := W8_keep m ρ c b h16
    _ = W6 m ρ c (Proc.devRef .tc b) := StableHlo.after_of_writes_sub hostOps1_4 _ hostOps1_4_writes h14
    _ = W5 m ρ c (Proc.devRef .tc b) := StableHlo.after_of_writes_sub hostOps1_3 _ hostOps1_3_writes h13
    _ = W4 m ρ c (Proc.devRef .tc b) := StableHlo.after_of_writes_sub hostOps1_2 _ hostOps1_2_writes h12
    _ = W3 m ρ c (Proc.devRef .tc b) := StableHlo.after_of_writes_sub hostOps1_1 _ hostOps1_1_writes h11
    _ = W2 m ρ c (Proc.devRef .tc b) := StableHlo.after_of_writes_sub hostOps1 _ hostOps1_writes h1
    _ = W1 m ρ c (Proc.devRef .tc b) := W2_keep m ρ c b h3
    _ = W0 m ρ c (Proc.devRef .tc b) := StableHlo.after_of_writes_sub hostOps0 _ hostOps0_writes h0
    _ = m ((c : Thread nD τ).loc b) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c
  | ⟨2, _⟩ => fun c => dat2 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-! ## The regions as segments

Each is entered with every unscoped buffer at its entry boundary's contents and left with them at its exit boundary's:
its arrays are split out of the unscoped buffers at entry and put back, at what the pipeline leaves, at exit; the
generator register goes into the pipeline's invariant and comes back; nothing is owed; the kernel has no semaphore
of its own. -/

-- a library lemma stated over the pinned configuration unifies with the printed one only when unification may unfold
-- plain definitions in a metavariable's type
set_option backward.isDefEq.respectTransparency.types false in
/-- The projection region. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body0_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The edge region. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body1_obligation (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The activation region, the last item: it is left at the last thread state beside the core owing nothing. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body2_obligation (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)),
    .region (reg2 m ρ) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in the final memory every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The memory at an unscoped TensorCore reference, read off the run's post. -/
theorem read_at {s : MemSt nD τ sig (Elt F)} {c : Dev nD}
    (h : ∀ b ∈ Pipeline.ucRefs τ sig, s.mem (((c : Thread nD τ)).1, b) = W10 m ρ c b) (b : Ref sig .tc)
    (hb : ¬ (Proc.devRef .tc b : DevRef τ sig).isScoped) :
    s.mem ((c.tc : Thread nD τ).loc b) = W10 m ρ c (Proc.devRef .tc b) :=
  h _ (mem_uc b hb)

/-- In a memory that holds every unscoped buffer at the last boundary's contents, the fourteen arguments hold their
    launch contents: no host operation and no region writes one. -/
theorem kept_args {s : MemSt nD τ sig (Elt F)} {c : Dev nD}
    (h : ∀ b ∈ Pipeline.ucRefs τ sig, s.mem (((c : Thread nD τ)).1, b) = W10 m ρ c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13) :=
  ⟨(read_at m ρ h main_arg0 (by decide)).trans (W10_launch m ρ c main_arg0 (by decide) (by decide) (by decide) (by decide) (by decide) (by decide) (by decide) (by decide) (by decide) (by decide)),
   (read_at m ρ h main_arg1 (by decide)).trans (W10_launch m ρ c main_arg1 (by decide) (by decide) (by decide) (by decide) (by decide) (by decide) (by decide) (by decide) (by decide) (by decide)),
   (read_at m ρ h main_arg2 (by decide)).trans (W10_launch m ρ c main_arg2 (by decide) (by decide) (by decide) (by decide) (by decide) (by decide) (by decide) (by decide) (by decide) (by decide)),
   (read_at m ρ h main_arg3 (by decide)).trans (W10_launch m ρ c main_arg3 (by decide) (by decide) (by decide) (by decide) (by decide) (by decide) (by decide) (by decide) (by decide) (by decide)),
   (read_at m ρ h main_arg4 (by decide)).trans (W10_launch m ρ c main_arg4 (by decide) (by decide) (by decide) (by decide) (by decide) (by decide) (by decide) (by decide) (by decide) (by decide)),
   (read_at m ρ h main_arg5 (by decide)).trans (W10_launch m ρ c main_arg5 (by decide) (by decide) (by decide) (by decide) (by decide) (by decide) (by decide) (by decide) (by decide) (by decide)),
   (read_at m ρ h main_arg6 (by decide)).trans (W10_launch m ρ c main_arg6 (by decide) (by decide) (by decide) (by decide) (by decide) (by decide) (by decide) (by decide) (by decide) (by decide)),
   (read_at m ρ h main_arg7 (by decide)).trans (W10_launch m ρ c main_arg7 (by decide) (by decide) (by decide) (by decide) (by decide) (by decide) (by decide) (by decide) (by decide) (by decide)),
   (read_at m ρ h main_arg8 (by decide)).trans (W10_launch m ρ c main_arg8 (by decide) (by decide) (by decide) (by decide) (by decide) (by decide) (by decide) (by decide) (by decide) (by decide)),
   (read_at m ρ h main_arg9 (by decide)).trans (W10_launch m ρ c main_arg9 (by decide) (by decide) (by decide) (by decide) (by decide) (by decide) (by decide) (by decide) (by decide) (by decide)),
   (read_at m ρ h main_arg10 (by decide)).trans (W10_launch m ρ c main_arg10 (by decide) (by decide) (by decide) (by decide) (by decide) (by decide) (by decide) (by decide) (by decide) (by decide)),
   (read_at m ρ h main_arg11 (by decide)).trans (W10_launch m ρ c main_arg11 (by decide) (by decide) (by decide) (by decide) (by decide) (by decide) (by decide) (by decide) (by decide) (by decide)),
   (read_at m ρ h main_arg12 (by decide)).trans (W10_launch m ρ c main_arg12 (by decide) (by decide) (by decide) (by decide) (by decide) (by decide) (by decide) (by decide) (by decide) (by decide)),
   (read_at m ρ h main_arg13 (by decide)).trans (W10_launch m ρ c main_arg13 (by decide) (by decide) (by decide) (by decide) (by decide) (by decide) (by decide) (by decide) (by decide) (by decide))⟩

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_args m ρ (h c)) (run_all m ρ)

end Cert.Kernel.Fr

end
-- ==== Proof.KI.R0.lean ====
/-
  The first kernel region (the fused projection), at any float instance and at a PARAMETER `V`: the contents of the
  TensorCore's buffers when the region is entered. The grid has 50 points; point `t` sees rows 2000·t … 2000·t + 1999
  of the node features (window 0), the whole 128 × 256 matrix of the four weight matrices side by side (window 1) and
  the whole 1 × 256 row of the four biases (window 2), the last two fetched once and kept, and writes rows
  2000·t … 2000·t + 1999 of the 100000 × 256 projection (window 3). The body multiplies the feature block by the
  weights (both first narrowed to the short float format) and adds the bias row to every row of the product; it also
  reads the output block before overwriting all of it, a read whose value is not used.
  Stated here: what the body leaves in the output block as a function of the three input blocks, the body's triple,
  the pipeline's proof data, and the obligation the launch theorem asks of the body at every point.
-/
import proofs.«408360_j40956808135194_1_alg».proof.Proof.Gen.KernelIdeal.Launch
import proofs.«408360_j40956808135194_1_alg».proof.Proof.Gen.KernelIdeal.Skeleton
import proofs.«408360_j40956808135194_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a point -/

/-- Window `w`'s block at point `t`, read off the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds that window's block when the body starts, whether the pipeline fetched it
    at this point or kept it from an earlier one: for any proof data over the arrays of `V` whose body leaves the block
    in place. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in the output block -/

/-- The rectangles the body touches: each block whole. -/
abbrev rows0 : Rect S2000x128 := Rect.unit (s := S2000x128) ![0, 0] S2000x128.size inb_S2000x128_S2000x128_0_0
abbrev wts0 : Rect S128x256 := Rect.unit (s := S128x256) ![0, 0] S128x256.size inb_S128x256_S128x256_0_0
abbrev bias0 : Rect S1x256 := Rect.unit (s := S1x256) ![0, 0] S1x256.size inb_S1x256_S1x256_0_0
abbrev whole0 : Rect S2000x256 := Rect.unit (s := S2000x256) ![0, 0] S2000x256.size inb_S2000x256_S2000x256_0_0

/-- The output block after the body: its single store, of (feature block · weights) + bias row. -/
def proj0 (x : Vec F S2000x128 .f32) (w : Vec F S128x256 .f32) (b : Vec F S1x256 .f32) : Vec F S2000x256 .f32 :=
  View.canon [⟨whole0, k0_pay1 (View.ld x rows0) (View.ld w wts0) (View.ld b bias0)⟩]

/-- That store covers the block. -/
theorem proj0_cover (p0 : Vec F S2000x256 .f32) (y : S2000x256.Idx) :
    ∃ pc ∈ ([⟨whole0, p0⟩] : List (View.Piece (Elt F) S2000x256 .f32)), y ∈ pc.1.set :=
  View.cover_of_tiled [⟨whole0, p0⟩] S2000x256.size (by rfl) y

/-! ## The body's triple -/

set_option maxHeartbeats 1000000 in
/-- On whole staging memrefs, the inputs at contents `x`, `w`, `b` and the output at anything, the body runs to its
    continuation with the inputs as they were and the output at `proj0 x w b`. -/
theorem body0_triple (c : Dev nD) (E : Set ℕ) (i : grid0.Coords) (arg1 : Memref sig .tc .vmem S2000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S2000x256 .f32) (harg4 : arg4.IsWhole)
    (x : Vec F S2000x128 .f32) (w : Vec F S128x256 .f32) (b : Vec F S1x256 .f32) (K : PUnit → sProp 𝕄) :
    iprop(owns (c : Thread nD τ) arg1 fullShare x ∗ owns (c : Thread nD τ) arg2 fullShare w ∗ owns (c : Thread nD τ) arg3 fullShare b ∗ (∃ d, owns (c : Thread nD τ) arg4 fullShare d)
        ∗ (iprop(owns (c : Thread nD τ) arg1 fullShare x ∗ owns (c : Thread nD τ) arg2 fullShare w ∗ owns (c : Thread nD τ) arg3 fullShare b ∗ owns (c : Thread nD τ) arg4 fullShare (proj0 x w b)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (proj0_cover _)

/-! ## The pipeline's proof data -/

/-- The proof data of the first pipeline on core `c`: its arrays as `V` has them; after the body at point `t` each
    input's buffer still at its block and the output's at `proj0` of the three blocks; the invariant is the untouched
    rest (the other scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => proj0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = proj0 (blk0 V c 0 t) (blk0 V c 1 t) (blk0 V c 2 t) := by dsimp only [dat0]

theorem dat0_before0 (c : Dev nD) (t : Fin cfg0.N) (d) : (dat0 V c).before 0 t d = blk0 V c 0 t :=
  held0_0 V (dat0 V c) (dat0_A V c 0) (dat0_after0 V c) t d
theorem dat0_before1 (c : Dev nD) (t : Fin cfg0.N) (d) : (dat0 V c).before 1 t d = blk0 V c 1 t :=
  held0_1 V (dat0 V c) (dat0_A V c 1) (dat0_after1 V c) t d
theorem dat0_before2 (c : Dev nD) (t : Fin cfg0.N) (d) : (dat0 V c).before 2 t d = blk0 V c 2 t :=
  held0_2 V (dat0 V c) (dat0_A V c 2) (dat0_after2 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and what the
    core owes pass through unread. -/
theorem body0_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body0_triple c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's obligation on the body, at every point. -/
theorem body0_obligation (c : Dev nD) : BodyObligation (dat0 (F := F) V c) (defs₀ (F := F)) Variants.none () Set.univ := fun t => by
  rw [bigSep_W0, bigSep_W0]
  exact body0_at V c t

end Cert.KernelIdeal.Fr

end
-- ==== Proof.KI.R1.lean ====
/-
  The second kernel region (the gated message of every edge), at any float instance and at a PARAMETER `V`: the
  contents of the TensorCore's buffers when the region is entered. The grid has 400 points; point `t` sees rows
  4000·t … 4000·t + 3999 of the edge attributes (window 0), the whole 64 × 64 edge weight matrix (window 1) and the
  whole 1 × 64 edge bias row (window 2), both fetched once and kept, and the same 4000 rows of the three gathered
  node projections: the key at the edge's target, the query at its source, the value at its source (windows 3, 4, 5);
  it writes those 4000 rows of the messages (window 6). The body projects the attribute block by the edge weights
  (both first narrowed to the short float format), adds the bias row, adds the key and query blocks, takes the
  logistic function entry by entry and multiplies by the value block; it also reads the output block before
  overwriting all of it, a read whose value is not used.
  Stated here: what the body leaves in the output block as a function of the six input blocks, the body's triple,
  the pipeline's proof data, and the obligation the launch theorem asks of the body at every point.
-/
import proofs.«408360_j40956808135194_1_alg».proof.Proof.Gen.KernelIdeal.Launch
import proofs.«408360_j40956808135194_1_alg».proof.Proof.Gen.KernelIdeal.Skeleton
import proofs.«408360_j40956808135194_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a point -/

/-- Window `w`'s block at point `t`, read off the array the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds that window's block when the body starts, whether the pipeline fetched it
    at this point or kept it from an earlier one: for any proof data over the arrays of `V` whose body leaves the block
    in place. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem held1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem held1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem held1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the output block -/

/-- The rectangles the body touches: each block whole. -/
abbrev rows1 : Rect S4000x64 := Rect.unit (s := S4000x64) ![0, 0] S4000x64.size inb_S4000x64_S4000x64_0_0
abbrev wts1 : Rect S64x64 := Rect.unit (s := S64x64) ![0, 0] S64x64.size inb_S64x64_S64x64_0_0
abbrev bias1 : Rect S1x64 := Rect.unit (s := S1x64) ![0, 0] S1x64.size inb_S1x64_S1x64_0_0

/-- The output block after the body: its single store, of logistic(key + query + (attributes · weights + bias)) · value. -/
def msg1 (ea : Vec F S4000x64 .f32) (w : Vec F S64x64 .f32) (b : Vec F S1x64 .f32) (kd qs vs : Vec F S4000x64 .f32) : Vec F S4000x64 .f32 :=
  View.canon [⟨rows1, k1_pay1 (View.ld ea rows1) (View.ld w wts1) (View.ld b bias1) (View.ld kd rows1) (View.ld qs rows1) (View.ld vs rows1)⟩]

/-- That store covers the block. -/
theorem msg1_cover (p0 : Vec F S4000x64 .f32) (y : S4000x64.Idx) :
    ∃ pc ∈ ([⟨rows1, p0⟩] : List (View.Piece (Elt F) S4000x64 .f32)), y ∈ pc.1.set :=
  View.cover_of_tiled [⟨rows1, p0⟩] S4000x64.size (by rfl) y

/-! ## The body's triple -/

set_option maxHeartbeats 1000000 in
/-- On whole staging memrefs, the inputs at contents `ea`, `w`, `b`, `kd`, `qs`, `vs` and the output at anything, the body
    runs to its continuation with the inputs as they were and the output at `msg1` of them. -/
theorem body1_triple (c : Dev nD) (E : Set ℕ) (i : grid1.Coords) (arg1 : Memref sig .tc .vmem S4000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S4000x64 .f32) (harg4 : arg4.IsWhole) (arg5 : Memref sig .tc .vmem S4000x64 .f32) (harg5 : arg5.IsWhole) (arg6 : Memref sig .tc .vmem S4000x64 .f32) (harg6 : arg6.IsWhole) (arg7 : Memref sig .tc .vmem S4000x64 .f32) (harg7 : arg7.IsWhole)
    (ea : Vec F S4000x64 .f32) (w : Vec F S64x64 .f32) (b : Vec F S1x64 .f32) (kd qs vs : Vec F S4000x64 .f32) (K : PUnit → sProp 𝕄) :
    iprop(owns (c : Thread nD τ) arg1 fullShare ea ∗ owns (c : Thread nD τ) arg2 fullShare w ∗ owns (c : Thread nD τ) arg3 fullShare b
        ∗ owns (c : Thread nD τ) arg4 fullShare kd ∗ owns (c : Thread nD τ) arg5 fullShare qs ∗ owns (c : Thread nD τ) arg6 fullShare vs ∗ (∃ d, owns (c : Thread nD τ) arg7 fullShare d)
        ∗ (iprop(owns (c : Thread nD τ) arg1 fullShare ea ∗ owns (c : Thread nD τ) arg2 fullShare w ∗ owns (c : Thread nD τ) arg3 fullShare b
            ∗ owns (c : Thread nD τ) arg4 fullShare kd ∗ owns (c : Thread nD τ) arg5 fullShare qs ∗ owns (c : Thread nD τ) arg6 fullShare vs
            ∗ owns (c : Thread nD τ) arg7 fullShare (msg1 ea w b kd qs vs)) -∗ K ⟨⟩))
      ⊢ wp frame (wpE (defs₀ (F := F)) Variants.none c none) E (cc1__edge_kernel i arg1 harg1 arg2 harg2 arg3 harg3 arg4 harg4 arg5 harg5 arg6 harg6 arg7 harg7) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (msg1_cover _)

/-! ## The pipeline's proof data -/

/-- The proof data of the second pipeline on core `c`: its arrays as `V` has them; after the body at point `t` each
    input's buffer still at its block and the output's at `msg1` of the six blocks; the invariant is the untouched rest
    (the other scoped buffers and the generator register); nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => msg1 (blk1 V c 0 t) (blk1 V c 1 t) (blk1 V c 2 t) (blk1 V c 3 t) (blk1 V c 4 t) (blk1 V c 5 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = msg1 (blk1 V c 0 t) (blk1 V c 1 t) (blk1 V c 2 t) (blk1 V c 3 t) (blk1 V c 4 t) (blk1 V c 5 t) := by dsimp only [dat1]

theorem dat1_before0 (c : Dev nD) (t : Fin cfg1.N) (d) : (dat1 V c).before 0 t d = blk1 V c 0 t :=
  held1_0 V (dat1 V c) (dat1_A V c 0) (dat1_after0 V c) t d
theorem dat1_before1 (c : Dev nD) (t : Fin cfg1.N) (d) : (dat1 V c).before 1 t d = blk1 V c 1 t :=
  held1_1 V (dat1 V c) (dat1_A V c 1) (dat1_after1 V c) t d
theorem dat1_before2 (c : Dev nD) (t : Fin cfg1.N) (d) : (dat1 V c).before 2 t d = blk1 V c 2 t :=
  held1_2 V (dat1 V c) (dat1_A V c 2) (dat1_after2 V c) t d
theorem dat1_before3 (c : Dev nD) (t : Fin cfg1.N) (d) : (dat1 V c).before 3 t d = blk1 V c 3 t :=
  held1_3 V (dat1 V c) (dat1_A V c 3) (dat1_after3 V c) t d
theorem dat1_before4 (c : Dev nD) (t : Fin cfg1.N) (d) : (dat1 V c).before 4 t d = blk1 V c 4 t :=
  held1_4 V (dat1 V c) (dat1_A V c 4) (dat1_after4 V c) t d
theorem dat1_before5 (c : Dev nD) (t : Fin cfg1.N) (d) : (dat1 V c).before 5 t d = blk1 V c 5 t :=
  held1_5 V (dat1 V c) (dat1_A V c 5) (dat1_after5 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the triple applies; the invariant and what the
    core owes pass through unread. -/
theorem body1_at (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before0, dat1_before1, dat1_before2, dat1_before3, dat1_before4, dat1_before5]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body1_triple c Set.univ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorem's obligation on the body, at every point. -/
theorem body1_obligation (c : Dev nD) : BodyObligation (dat1 (F := F) V c) (defs₀ (F := F)) Variants.none () Set.univ := fun t => by
  rw [bigSep_W1, bigSep_W1]
  exact body1_at V c t

end Cert.KernelIdeal.Fr

end
-- ==== Proof.KI.R2.lean ====
/-
  The third kernel region (the final activation), at any float instance and at a PARAMETER `V`: the contents of
  the TensorCore's buffers when the region is entered. The grid has 50 points; point `t` sees rows
  2000·t … 2000·t + 1999 of the aggregated messages and of the skip projection (two input windows) and writes the
  same rows of the result (one output window). The body adds its two blocks entry by entry and takes the maximum
  with zero; it also reads the output block before overwriting all of it, a read whose value is not used.
  Stated here: what the body leaves in the output block as a function of the two input blocks, the body's triple,
  the pipeline's proof data, and the obligation the launch theorem asks of the body at every point.
-/
import proofs.«408360_j40956808135194_1_alg».proof.Proof.Gen.KernelIdeal.Launch
import proofs.«408360_j40956808135194_1_alg».proof.Proof.Gen.KernelIdeal.Skeleton
import proofs.«408360_j40956808135194_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a point -/

/-- Window `w`'s block at point `t`, read off the array the region finds. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds that window's block when the body starts, whether the pipeline fetched it
    at this point or kept it: for any proof data over the arrays of `V` whose body leaves the block in place. -/
theorem held2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem held2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What the body leaves in the output block -/

/-- The one rectangle the body touches: the whole 2000 × 64 block. -/
abbrev whole2 : Rect S2000x64 := Rect.unit (s := S2000x64) ![0, 0] S2000x64.size inb_S2000x64_S2000x64_0_0

/-- The output block after the body: its single store, of max(agg + skip, 0) over the two input blocks. -/
def relu2 (agg skip : Vec F S2000x64 .f32) : Vec F S2000x64 .f32 :=
  View.canon [⟨whole2, k2_pay1 (View.ld agg whole2) (View.ld skip whole2)⟩]

/-- That store covers the block. -/
theorem relu2_cover (p0 : Vec F S2000x64 .f32) (y : S2000x64.Idx) :
    ∃ pc ∈ ([⟨whole2, p0⟩] : List (View.Piece (Elt F) S2000x64 .f32)), y ∈ pc.1.set :=
  View.cover_of_tiled [⟨whole2, p0⟩] S2000x64.size (by rfl) y

/-! ## The body's triple -/

set_option maxHeartbeats 1000000 in
/-- On whole staging memrefs, the inputs at contents `agg`, `skip` and the output at anything, the body runs to its
    continuation with the inputs as they were and the output at `relu2 agg skip`. -/
theorem body2_triple (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole)
    (agg skip : Vec F S2000x64 .f32) (K : PUnit → sProp 𝕄) :
    iprop(owns (c : Thread nD τ) arg1 fullShare agg ∗ owns (c : Thread nD τ) arg2 fullShare skip ∗ (∃ d, owns (c : Thread nD τ) arg3 fullShare d)
        ∗ (iprop(owns (c : Thread nD τ) arg1 fullShare agg ∗ owns (c : Thread nD τ) arg2 fullShare skip ∗ owns (c : Thread nD τ) arg3 fullShare (relu2 agg skip)) -∗ K ⟨⟩))
      ⊢ wp frame (wpE (defs₀ (F := F)) Variants.none c none) E (cc2__finalize_kernel i arg1 harg1 arg2 harg2 arg3 harg3) K := by
  simp only [cc2__finalize_kernel_eq_skeleton]; unfold cc2__finalize_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (relu2_cover _)

/-! ## The pipeline's proof data -/

/-- The proof data of the third pipeline on core `c`: its arrays as `V` has them; after the body at point `t` each
    input's buffer still at its block and the output's at `relu2` of the two blocks; the invariant is the untouched rest
    (the other scoped buffers and the generator register); nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => relu2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = relu2 (blk2 V c 0 t) (blk2 V c 1 t) := by dsimp only [dat2]

theorem dat2_before0 (c : Dev nD) (t : Fin cfg2.N) (d) : (dat2 V c).before 0 t d = blk2 V c 0 t :=
  held2_0 V (dat2 V c) (dat2_A V c 0) (dat2_after0 V c) t d
theorem dat2_before1 (c : Dev nD) (t : Fin cfg2.N) (d) : (dat2 V c).before 1 t d = blk2 V c 1 t :=
  held2_1 V (dat2 V c) (dat2_A V c 1) (dat2_after1 V c) t d

/-! ## The body obligation at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the triple applies; the invariant and what the
    core owes pass through unread. -/
theorem body2_at (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [dat2_before0, dat2_before1]
  rw [show (dat2 V c).Φ t.succ = (dat2 V c).Φ t.castSucc from rfl,
    show (dat2 V c).owesAt () t.succ = (dat2 V c).owesAt () t.castSucc from rfl,
    dat2_after0, dat2_after1, dat2_after2]
  iintro ⟨HΦ, Ho, ⟨%d0, H0⟩, ⟨%d1, H1⟩, ⟨%d2, H2⟩⟩
  iapply (body2_triple c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's obligation on the body, at every point. -/
theorem body2_obligation (c : Dev nD) : BodyObligation (dat2 (F := F) V c) (defs₀ (F := F)) Variants.none () Set.univ := fun t => by
  rw [bigSep_W2, bigSep_W2]
  exact body2_at V c t

end Cert.KernelIdeal.Fr

end
-- ==== Proof.KI.Run.lean ====
/-
  The whole run of @main, at any float instance: the contents of the TensorCore's unscoped buffers at each of the
  eleven boundaries between @main's ten items (host stretch, projection region, five host stretches, edge region,
  host stretch, activation region), as a fold from the launch memory; the three pipelines' proof data, each at the
  contents its region is entered with; each region as a segment that takes every unscoped buffer at one boundary's
  contents to the next boundary's; and the launch over the ten segments, whose post reads EVERY unscoped buffer of
  the final memory at the last boundary's contents. From that one post follow both that the fourteen arguments end
  as launched (no host operation and no region writes one) and what the result buffer holds.
-/
import proofs.«408360_j40956808135194_1_alg».proof.Proof.Gen.KernelIdeal.Launch
import proofs.«408360_j40956808135194_1_alg».proof.Proof.Gen.KernelIdeal.Skeleton
import proofs.«408360_j40956808135194_1_alg».proof.Proof.Gen.KernelIdeal.Points
import proofs.«408360_j40956808135194_1_alg».proof.Proof.Gen.KernelIdeal.Regions
import proofs.«408360_j40956808135194_1_alg».proof.Proof.KI.R0
import proofs.«408360_j40956808135194_1_alg».proof.Proof.KI.R1
import proofs.«408360_j40956808135194_1_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the weights side by side, the biases end to end as one row): the projection region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem left0 (c : Dev nD) (w : Fin cfg0.W) : (dat0 (V1 m ρ) c).arrAt w cfg0.N = V2 m ρ c (Pipeline.arrRef spec0 w) :=
  (W2_arr m ρ c w).symm
theorem kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the four column slices of the projection and the two rows of the edge list. -/
abbrev W3 : Dev nD → Valuation τ sig (Elt F) := fun c => StableHlo.after hostOps1 (W2 m ρ c)
/-- After the key rows taken at the edges' targets. -/
abbrev W4 : Dev nD → Valuation τ sig (Elt F) := fun c => StableHlo.after hostOps1_1 (W3 m ρ c)
/-- After the query rows taken at the edges' sources. -/
abbrev W5 : Dev nD → Valuation τ sig (Elt F) := fun c => StableHlo.after hostOps1_2 (W4 m ρ c)
/-- After the value rows taken at the edges' sources. -/
abbrev W6 : Dev nD → Valuation τ sig (Elt F) := fun c => StableHlo.after hostOps1_3 (W5 m ρ c)
/-- After the edge bias reshaped to a row: the edge region's entry. -/
abbrev W7 : Dev nD → Valuation τ sig (Elt F) := fun c => StableHlo.after hostOps1_4 (W6 m ρ c)
abbrev V7 : (c : Dev nD) → (b : Ref sig .tc) → Buf (Elt F) ((c : Thread nD τ).loc b) := fun c b => W7 m ρ c b
/-- At the edge region's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem left1 (c : Dev nD) (w : Fin cfg1.W) : (dat1 (V7 m ρ) c).arrAt w cfg1.N = V8 m ρ c (Pipeline.arrRef spec1 w) :=
  (W8_arr m ρ c w).symm
theorem kept1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After the messages are summed into their target rows: the activation region's entry. -/
abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b
/-- At the activation region's exit: the end of @main. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem left2 (c : Dev nD) (w : Fin cfg2.W) : (dat2 (V9 m ρ) c).arrAt w cfg2.N = V10 m ρ c (Pipeline.arrRef spec2 w) :=
  (W10_arr m ρ c w).symm
theorem kept2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-! ## A buffer no item writes holds its launch contents at the end

A region leaves each of its INPUT arrays as entered, so at a region's exit every buffer but the region's one output
array is as at its entry; a host stretch leaves every buffer it does not write. -/

theorem W2_keep (c : Dev nD) (b : Ref sig .tc) (hb : b ≠ main_v3) : W2 m ρ c (Proc.devRef .tc b) = W1 m ρ c (Proc.devRef .tc b) := by
  by_cases h : ∃ w, Pipeline.arrRef spec0 w = b
  · obtain ⟨w, rfl⟩ := h
    rw [W2_arr]
    match w, hb with
    | ⟨0, _⟩, _ => exact ((dat0 (V1 m ρ) c).arrAt_in 0 rfl _).trans (dat0_A (V1 m ρ) c 0)
    | ⟨1, _⟩, _ => exact ((dat0 (V1 m ρ) c).arrAt_in 1 rfl _).trans (dat0_A (V1 m ρ) c 1)
    | ⟨2, _⟩, _ => exact ((dat0 (V1 m ρ) c).arrAt_in 2 rfl _).trans (dat0_A (V1 m ρ) c 2)
    | ⟨3, _⟩, hb => exact absurd rfl hb
  · exact W2_of_ne m ρ c b fun w e => h ⟨w, e⟩
theorem W8_keep (c : Dev nD) (b : Ref sig .tc) (hb : b ≠ main_v16) : W8 m ρ c (Proc.devRef .tc b) = W7 m ρ c (Proc.devRef .tc b) := by
  by_cases h : ∃ w, Pipeline.arrRef spec1 w = b
  · obtain ⟨w, rfl⟩ := h
    rw [W8_arr]
    match w, hb with
    | ⟨0, _⟩, _ => exact ((dat1 (V7 m ρ) c).arrAt_in 0 rfl _).trans (dat1_A (V7 m ρ) c 0)
    | ⟨1, _⟩, _ => exact ((dat1 (V7 m ρ) c).arrAt_in 1 rfl _).trans (dat1_A (V7 m ρ) c 1)
    | ⟨2, _⟩, _ => exact ((dat1 (V7 m ρ) c).arrAt_in 2 rfl _).trans (dat1_A (V7 m ρ) c 2)
    | ⟨3, _⟩, _ => exact ((dat1 (V7 m ρ) c).arrAt_in 3 rfl _).trans (dat1_A (V7 m ρ) c 3)
    | ⟨4, _⟩, _ => exact ((dat1 (V7 m ρ) c).arrAt_in 4 rfl _).trans (dat1_A (V7 m ρ) c 4)
    | ⟨5, _⟩, _ => exact ((dat1 (V7 m ρ) c).arrAt_in 5 rfl _).trans (dat1_A (V7 m ρ) c 5)
    | ⟨6, _⟩, hb => exact absurd rfl hb
  · exact W8_of_ne m ρ c b fun w e => h ⟨w, e⟩
theorem W10_keep (c : Dev nD) (b : Ref sig .tc) (hb : b ≠ main_v20) : W10 m ρ c (Proc.devRef .tc b) = W9 m ρ c (Proc.devRef .tc b) := by
  by_cases h : ∃ w, Pipeline.arrRef spec2 w = b
  · obtain ⟨w, rfl⟩ := h
    rw [W10_arr]
    match w, hb with
    | ⟨0, _⟩, _ => exact ((dat2 (V9 m ρ) c).arrAt_in 0 rfl _).trans (dat2_A (V9 m ρ) c 0)
    | ⟨1, _⟩, _ => exact ((dat2 (V9 m ρ) c).arrAt_in 1 rfl _).trans (dat2_A (V9 m ρ) c 1)
    | ⟨2, _⟩, hb => exact absurd rfl hb
  · exact W10_of_ne m ρ c b fun w e => h ⟨w, e⟩

/-- A buffer that is neither a region's output nor written by a host stretch ends at its launch contents. -/
theorem W10_launch (c : Dev nD) (b : Ref sig .tc) (h3 : b ≠ main_v3) (h16 : b ≠ main_v16) (h20 : b ≠ main_v20)
    (h0 : b ∉ hostOps0_W) (h1 : b ∉ hostOps1_W) (h11 : b ∉ hostOps1_1_W) (h12 : b ∉ hostOps1_2_W) (h13 : b ∉ hostOps1_3_W)
    (h14 : b ∉ hostOps1_4_W) (h2 : b ∉ hostOps2_W) :
    W10 m ρ c (Proc.devRef .tc b) = m ((c : Thread nD τ).loc b) :=
  calc W10 m ρ c (Proc.devRef .tc b)
    _ = W9 m ρ c (Proc.devRef .tc b) := W10_keep m ρ c b h20
    _ = W8 m ρ c (Proc.devRef .tc b) := StableHlo.after_of_writes_sub hostOps2 _ hostOps2_writes h2
    _ = W7 m ρ c (Proc.devRef .tc b) := W8_keep m ρ c b h16
    _ = W6 m ρ c (Proc.devRef .tc b) := StableHlo.after_of_writes_sub hostOps1_4 _ hostOps1_4_writes h14
    _ = W5 m ρ c (Proc.devRef .tc b) := StableHlo.after_of_writes_sub hostOps1_3 _ hostOps1_3_writes h13
    _ = W4 m ρ c (Proc.devRef .tc b) := StableHlo.after_of_writes_sub hostOps1_2 _ hostOps1_2_writes h12
    _ = W3 m ρ c (Proc.devRef .tc b) := StableHlo.after_of_writes_sub hostOps1_1 _ hostOps1_1_writes h11
    _ = W2 m ρ c (Proc.devRef .tc b) := StableHlo.after_of_writes_sub hostOps1 _ hostOps1_writes h1
    _ = W1 m ρ c (Proc.devRef .tc b) := W2_keep m ρ c b h3
    _ = W0 m ρ c (Proc.devRef .tc b) := StableHlo.after_of_writes_sub hostOps0 _ hostOps0_writes h0
    _ = m ((c : Thread nD τ).loc b) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c
  | ⟨2, _⟩ => fun c => dat2 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-! ## The regions as segments

Each is entered with every unscoped buffer at its entry boundary's contents and left with them at its exit boundary's:
its arrays are split out of the unscoped buffers at entry and put back, at what the pipeline leaves, at exit; the
generator register goes into the pipeline's invariant and comes back; nothing is owed; the kernel has no semaphore
of its own. -/

-- a library lemma stated over the pinned configuration unifies with the printed one only when unification may unfold
-- plain definitions in a metavariable's type
set_option backward.isDefEq.respectTransparency.types false in
/-- The projection region. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body0_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The edge region. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body1_obligation (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The activation region, the last item: it is left at the last thread state beside the core owing nothing. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body2_obligation (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)),
    .region (reg2 m ρ) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in the final memory every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The memory at an unscoped TensorCore reference, read off the run's post. -/
theorem read_at {s : MemSt nD τ sig (Elt F)} {c : Dev nD}
    (h : ∀ b ∈ Pipeline.ucRefs τ sig, s.mem (((c : Thread nD τ)).1, b) = W10 m ρ c b) (b : Ref sig .tc)
    (hb : ¬ (Proc.devRef .tc b : DevRef τ sig).isScoped) :
    s.mem ((c.tc : Thread nD τ).loc b) = W10 m ρ c (Proc.devRef .tc b) :=
  h _ (mem_uc b hb)

/-- In a memory that holds every unscoped buffer at the last boundary's contents, the fourteen arguments hold their
    launch contents: no host operation and no region writes one. -/
theorem kept_args {s : MemSt nD τ sig (Elt F)} {c : Dev nD}
    (h : ∀ b ∈ Pipeline.ucRefs τ sig, s.mem (((c : Thread nD τ)).1, b) = W10 m ρ c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13) :=
  ⟨(read_at m ρ h main_arg0 (by decide)).trans (W10_launch m ρ c main_arg0 (by decide) (by decide) (by decide) (by decide) (by decide) (by decide) (by decide) (by decide) (by decide) (by decide)),
   (read_at m ρ h main_arg1 (by decide)).trans (W10_launch m ρ c main_arg1 (by decide) (by decide) (by decide) (by decide) (by decide) (by decide) (by decide) (by decide) (by decide) (by decide)),
   (read_at m ρ h main_arg2 (by decide)).trans (W10_launch m ρ c main_arg2 (by decide) (by decide) (by decide) (by decide) (by decide) (by decide) (by decide) (by decide) (by decide) (by decide)),
   (read_at m ρ h main_arg3 (by decide)).trans (W10_launch m ρ c main_arg3 (by decide) (by decide) (by decide) (by decide) (by decide) (by decide) (by decide) (by decide) (by decide) (by decide)),
   (read_at m ρ h main_arg4 (by decide)).trans (W10_launch m ρ c main_arg4 (by decide) (by decide) (by decide) (by decide) (by decide) (by decide) (by decide) (by decide) (by decide) (by decide)),
   (read_at m ρ h main_arg5 (by decide)).trans (W10_launch m ρ c main_arg5 (by decide) (by decide) (by decide) (by decide) (by decide) (by decide) (by decide) (by decide) (by decide) (by decide)),
   (read_at m ρ h main_arg6 (by decide)).trans (W10_launch m ρ c main_arg6 (by decide) (by decide) (by decide) (by decide) (by decide) (by decide) (by decide) (by decide) (by decide) (by decide)),
   (read_at m ρ h main_arg7 (by decide)).trans (W10_launch m ρ c main_arg7 (by decide) (by decide) (by decide) (by decide) (by decide) (by decide) (by decide) (by decide) (by decide) (by decide)),
   (read_at m ρ h main_arg8 (by decide)).trans (W10_launch m ρ c main_arg8 (by decide) (by decide) (by decide) (by decide) (by decide) (by decide) (by decide) (by decide) (by decide) (by decide)),
   (read_at m ρ h main_arg9 (by decide)).trans (W10_launch m ρ c main_arg9 (by decide) (by decide) (by decide) (by decide) (by decide) (by decide) (by decide) (by decide) (by decide) (by decide)),
   (read_at m ρ h main_arg10 (by decide)).trans (W10_launch m ρ c main_arg10 (by decide) (by decide) (by decide) (by decide) (by decide) (by decide) (by decide) (by decide) (by decide) (by decide)),
   (read_at m ρ h main_arg11 (by decide)).trans (W10_launch m ρ c main_arg11 (by decide) (by decide) (by decide) (by decide) (by decide) (by decide) (by decide) (by decide) (by decide) (by decide)),
   (read_at m ρ h main_arg12 (by decide)).trans (W10_launch m ρ c main_arg12 (by decide) (by decide) (by decide) (by decide) (by decide) (by decide) (by decide) (by decide) (by decide) (by decide)),
   (read_at m ρ h main_arg13 (by decide)).trans (W10_launch m ρ c main_arg13 (by decide) (by decide) (by decide) (by decide) (by decide) (by decide) (by decide) (by decide) (by decide) (by decide))⟩

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_args m ρ (h c)) (run_all m ρ)

end Cert.KernelIdeal.Fr

end
-- ==== Proof.KI.Take.lean ====
/-
  Taking rows of a 100000 × 64 table at a list of 1600000 row numbers, the way the kernel's host code does it:
  a negative number n is first replaced by n + 100000; the row is then gathered (a gather clamps the row number
  into 0 … 99999); and where the replaced number is NOT within 0 … 99999 the gathered row is overwritten by a
  not-a-number fill. When every row number is already within 0 … 99999 no row is overwritten: the result is the
  plain gather.
-/
import proofs.«408360_j40956808135194_1_alg».proof.KernelIdeal
import proofs.«408360_j40956808135194_1_alg».proof.Proof.Gen.KernelIdeal
import Idealize.ShloMosaic.Lib.ReduceAll
import Idealize.ShloMosaic.Lib.ValueIdx
import Idealize.ShloMosaic.Lib.Pipeline.Value
import Idealize.ShloMosaic.Lib.StableHlo.Predicate

noncomputable section

namespace Cert.KernelIdeal.Take

open Idealize.ShloMosaic Cert.KernelIdeal Cert.KernelIdeal.Gen

variable {F : FTy → Type} [FloatOps F]

/-- A negative row number n becomes n + 100000; any other is kept. -/
def wrapNeg (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- The replaced row numbers as a 1600000 × 1 column: the gather's start indices. -/
def startCol (idx : IVec S1600000 32) : IVec S1600000x1 32 :=
  broadcastInDim S1600000x1 ![0] bcast_S1600000_S1600000x1_0 (wrapNeg idx)

/-- Per row number, 1 where the replaced number is within 0 … 99999. -/
def inTable (idx : IVec S1600000 32) : IVec S1600000 1 :=
  Host.reduce IntOp.andi
    (andi (cmpi .sge (startCol idx) (broadcastInDim S1600000x1 ![] bcast_S_S1600000x1 (constantI S_ 32 0#32)))
      (cmpi .sle (startCol idx) (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- The rows taken: the gathered row where the number is in the table, the not-a-number fill elsewhere. -/
def rowsAt (t : FVec F S100000x64 .f32) (idx : IVec S1600000 32) : FVec F S1600000x64 .f32 :=
  select (broadcastInDim S1600000x64 ![0] bcast_S1600000_S1600000x64_0 (inTable idx))
    (Host.gather gather_S100000x64_S1600000x1_S1600000x64_1_0_n_n_0_1_164 t (startCol idx))
    (broadcastInDim S1600000x64 ![] bcast_S_S1600000x64 (constant S_ .f32 0x7FC00000#32))

/-- A broadcast along named axes reads, at every index, its operand at some index. -/
private theorem broadcastInDim_reads_operand {α : Type} {s u : Shape} (dims : Fin s.rank → Fin u.rank)
    (hb : s.BroadcastsInDim u dims) (x : s.Idx → α) (j : u.Idx) : ∃ k : s.Idx, broadcastInDim u dims hb x j = x k :=
  ⟨_, rfl⟩

/-- A left fold by `and` over one-bit words that starts at 1 and meets only 1s ends at 1. -/
private theorem foldl_andi_eq_one_of_all {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hf => by
    rw [List.foldl_cons]
    exact foldl_andi_eq_one_of_all f l _ (IntOp.andi_eq_one.2 ⟨hi, hf a List.mem_cons_self⟩)
      (fun n hn => hf n (List.mem_cons_of_mem _ hn))

/-- A reduce by `and` from the initial value 1 over an operand that is 1 everywhere is 1 at every result index. -/
private theorem reduce_andi_eq_one_of_all {s u v : Shape} {axes : List (Fin s.rank)} (x : s.Idx → BitVec 1)
    (init : v.Idx → BitVec 1) (hr : s.ReducesTo axes u) (hv : 0 < v.numel) (hinit : init (Shape.Idx.first hv) = 1#1)
    (hx : ∀ i, x i = 1#1) (j : u.Idx) : Host.reduce IntOp.andi x init hr hv j = 1#1 := by
  rw [Host.reduce_eq_foldl]
  exact foldl_andi_eq_one_of_all x _ _ hinit (fun n _ => hx n)

/-- A row number that is not negative is kept by the replacement of negative numbers. -/
private theorem wrapNeg_of_nonneg (idx : IVec S1600000 32) (e : S1600000.Idx) (h0 : 0 ≤ (idx e).toInt) :
    wrapNeg idx e = idx e := by
  -- the test "row number < 0" is false
  have hc : IntOp.cmpi .slt (idx e) 0#32 = 0#1 := by
    apply ValueIdx.eq_zero_of_ne_one
    intro h1
    have hlt := IntOp.cmpi_slt.1 h1
    have z0 : (0#32 : BitVec 32).toInt = 0 := by decide
    omega
  show Scalar.select (IntOp.cmpi .slt (idx e) 0#32) (IntOp.addi (idx e) 100000#32) (idx e) = idx e
  rw [hc, ValueIdx.select_zero]

/-- With every row number within 0 … 99999, so is every entry of the column of start indices. -/
private theorem startCol_range (idx : IVec S1600000 32)
    (h : ∀ e : S1600000.Idx, 0 ≤ (idx e).toInt ∧ (idx e).toInt < 100000) (i : S1600000x1.Idx) :
    0 ≤ (startCol idx i).toInt ∧ (startCol idx i).toInt < 100000 := by
  obtain ⟨k, hk⟩ := broadcastInDim_reads_operand ![0] bcast_S1600000_S1600000x1_0 (wrapNeg idx) i
  unfold startCol
  rw [hk, wrapNeg_of_nonneg idx k (h k).1]
  exact h k

/-- With every row number within 0 … 99999, every row number passes the "within the table" test. -/
private theorem inTable_eq_one (idx : IVec S1600000 32)
    (h : ∀ e : S1600000.Idx, 0 ≤ (idx e).toInt ∧ (idx e).toInt < 100000) (e : S1600000.Idx) :
    inTable idx e = 1#1 := by
  unfold inTable
  refine reduce_andi_eq_one_of_all _ _ _ _ rfl (fun i => ?_) e
  -- at entry i both broadcast bounds are the constants themselves
  show IntOp.andi (IntOp.cmpi .sge (startCol idx i) 0#32) (IntOp.cmpi .sle (startCol idx i) 99999#32) = 1#1
  obtain ⟨hlo, hhi⟩ := startCol_range idx h i
  have z0 : (0#32 : BitVec 32).toInt = 0 := by decide
  have zN : (99999#32 : BitVec 32).toInt = 99999 := by decide
  refine IntOp.andi_eq_one.2 ⟨IntOp.cmpi_sge.2 ?_, IntOp.cmpi_sle.2 ?_⟩
  · rw [z0]; exact hlo
  · rw [zN]; omega

/-- With every row number within 0 … 99999, the rows taken are the plain gather. -/
theorem rowsAt_eq_gather (t : FVec F S100000x64 .f32) (idx : IVec S1600000 32)
    (h : ∀ e : S1600000.Idx, 0 ≤ (idx e).toInt ∧ (idx e).toInt < 100000) :
    rowsAt t idx = Host.gather gather_S100000x64_S1600000x1_S1600000x64_1_0_n_n_0_1_164 t (startCol idx) := by
  funext i
  -- the mask at (e, j) is the "within the table" bit of some row number, which is 1
  obtain ⟨k, hk⟩ := broadcastInDim_reads_operand ![0] bcast_S1600000_S1600000x64_0 (inTable idx) i
  unfold rowsAt
  rw [ValueIdx.select_apply, hk, inTable_eq_one idx h k, ValueIdx.select_one]

end Cert.KernelIdeal.Take

end
-- ==== Proof.KI.Host.lean ====
/-
  What the host operations of @main write, as functions of the buffer contents they start from, at any float
  instance: the weight matrices side by side and the biases end to end as one row (before the projection region);
  the four column blocks of the projection and the two rows of the edge list (after it); the edge bias as a row; and the messages summed into their target rows. Each is the operations' composed term, read off the
  list of operations.
-/
import proofs.«408360_j40956808135194_1_alg».proof.Proof.Gen.KernelIdeal.Launch
import proofs.«408360_j40956808135194_1_alg».proof.Proof.KI.Take
import Idealize.ShloMosaic.Lib.StableHlo.Run

set_option maxRecDepth 16384

noncomputable section

namespace Cert.KernelIdeal.HostVal

open Idealize.ShloMosaic Idealize.ShloMosaic.TcCoe Idealize.SL.Sem Idealize.ShloMosaic.StableHlo
open Cert.KernelIdeal Cert.KernelIdeal.Gen Cert.KernelIdeal.Take

variable {F : FTy → Type} [FloatOps F]
variable (X : Valuation τ sig (Elt F))

/-- Running two lists of operations one after the other is running their concatenation. -/
theorem after_append (l1 l2 : List (HloOp τ sig (Elt F))) (V : Valuation τ sig (Elt F)) :
    StableHlo.after (l1 ++ l2) V = StableHlo.after l2 (StableHlo.after l1 V) := by
  induction l1 generalizing V with
  | nil => rfl
  | cons a l ih => simp only [List.cons_append, after_cons, ih]

/-- Reading a typed reference's contents back at the value's type undoes storing them: the two transports compose to
    the identity. -/
theorem ofBuf_toBuf {T : BufTy} (x : TRef sig T) (v : T.Contents (Elt F)) : x.ofBuf (x.toBuf v) = v := by
  simp only [TRef.ofBuf, TRef.toBuf, cast_cast, cast_eq]

/-- The four weight matrices side by side. -/
theorem weights_row : StableHlo.after hostOps0 X (Proc.devRef .tc main_v0)
    = concatenate S128x256 1 [⟨S128x64, X (Proc.devRef .tc main_arg4)⟩, ⟨S128x64, X (Proc.devRef .tc main_arg6)⟩, ⟨S128x64, X (Proc.devRef .tc main_arg8)⟩, ⟨S128x64, X (Proc.devRef .tc main_arg12)⟩]
        concatenates_S128x64_S128x64_S128x64_S128x64_S128x256_d1 := by
  after_results; rfl

/-- The four biases end to end, as one row. -/
theorem biases_row : StableHlo.after hostOps0 X (Proc.devRef .tc main_v2)
    = shapeCast S1x256 (concatenate S256 0 [⟨S64, X (Proc.devRef .tc main_arg5)⟩, ⟨S64, X (Proc.devRef .tc main_arg7)⟩, ⟨S64, X (Proc.devRef .tc main_arg9)⟩, ⟨S64, X (Proc.devRef .tc main_arg13)⟩]
        concatenates_S64_S64_S64_S64_S256_d0) shapeCasts_S256_S1x256 := by
  after_results; rfl

/-- The projection's four blocks of 64 columns. -/
theorem key_block : StableHlo.after hostOps1 X (Proc.devRef .tc main_v4)
    = extractStridedSlice S100000x64 ![0, 0] (X (Proc.devRef .tc main_v3)) slices_S100000x256_S100000x64_0_0 := by
  after_results
theorem query_block : StableHlo.after hostOps1 X (Proc.devRef .tc main_v5)
    = extractStridedSlice S100000x64 ![0, 64] (X (Proc.devRef .tc main_v3)) slices_S100000x256_S100000x64_0_64 := by
  after_results
theorem value_block : StableHlo.after hostOps1 X (Proc.devRef .tc main_v6)
    = extractStridedSlice S100000x64 ![0, 128] (X (Proc.devRef .tc main_v3)) slices_S100000x256_S100000x64_0_128 := by
  after_results
theorem skip_block : StableHlo.after hostOps1 X (Proc.devRef .tc main_v7)
    = extractStridedSlice S100000x64 ![0, 192] (X (Proc.devRef .tc main_v3)) slices_S100000x256_S100000x64_0_192 := by
  after_results

/-- The edges' sources (row 0 of the edge list) and targets (row 1). -/
theorem sources : StableHlo.after hostOps1 X (Proc.devRef .tc main_v9)
    = shapeCast S1600000 (extractStridedSlice S1x1600000 ![0, 0] (X (Proc.devRef .tc main_arg1)) slices_S2x1600000_S1x1600000_0_0) shapeCasts_S1x1600000_S1600000 := by
  after_results; rfl
theorem targets : StableHlo.after hostOps1 X (Proc.devRef .tc main_v11)
    = shapeCast S1600000 (extractStridedSlice S1x1600000 ![1, 0] (X (Proc.devRef .tc main_arg1)) slices_S2x1600000_S1x1600000_1_0) shapeCasts_S1x1600000_S1600000 := by
  after_results; rfl

/-- The edge bias as a row. -/
theorem edge_bias_row : StableHlo.after hostOps1_4 X (Proc.devRef .tc main_v15)
    = shapeCast S1x64 (X (Proc.devRef .tc main_arg11)) shapeCasts_S64_S1x64 := by
  after_results; rfl

/-- The messages summed into their target rows, from zero. -/
theorem summed : StableHlo.after hostOps2 X (Proc.devRef .tc main_v19)
    = Host.scatterAdd scatter_S100000x64_S1600000x1_S1600000x64_1_0_0_1
        (broadcastInDim S100000x64 ![] bcast_S_S100000x64 (constant S_ .f32 0x00000000#32))
        (broadcastInDim S1600000x1 ![0] bcast_S1600000_S1600000x1_0 (X (Proc.devRef .tc main_v11)))
        (X (Proc.devRef .tc main_v16)) := by
  after_results

end Cert.KernelIdeal.HostVal

end
-- ==== Proof.KI.HostTake0.lean ====
/-
  The first of the three row takes, read off its 23 host operations in three stages so that no intermediate is
  spelt twice: (1–7) the row numbers with negatives wrapped; (8–16) those numbers as a column and the two tests
  "≥ 0" and "≤ 99999" of it, and-ed; (17–23) the tests reduced per row number, the gather, and the not-a-number fill
  where the test failed. Together: the rows of the key block taken at the edges' targets.
-/
import proofs.«408360_j40956808135194_1_alg».proof.Proof.KI.Host

set_option maxRecDepth 16384

noncomputable section

namespace Cert.KernelIdeal.HostVal

open Idealize.ShloMosaic Idealize.ShloMosaic.TcCoe Idealize.SL.Sem Idealize.ShloMosaic.StableHlo
open Cert.KernelIdeal Cert.KernelIdeal.Gen Cert.KernelIdeal.Take

variable {F : FTy → Type} [FloatOps F]
variable (X Y Z : Valuation τ sig (Elt F))

/-- Operations 1–7: the row numbers with negatives wrapped. -/
theorem wrap0 : StableHlo.after (hostOps1_1.take 7) X (Proc.devRef .tc main_call0_v4) = wrapNeg (X (Proc.devRef .tc main_v11)) := by
  show StableHlo.after [_, _, _, _, _, _, _] X (Proc.devRef .tc main_call0_v4) = _
  unfold wrapNeg
  after_results; rfl
/-- They leave the table alone. -/
theorem wrap0_tbl : StableHlo.after (hostOps1_1.take 7) X (Proc.devRef .tc main_v4) = X (Proc.devRef .tc main_v4) := by
  show StableHlo.after [_, _, _, _, _, _, _] X (Proc.devRef .tc main_v4) = _
  after_results

/-- Operations 8–16: the wrapped numbers as a column, -/
theorem col0 : StableHlo.after ((hostOps1_1.drop 7).take 9) Y (Proc.devRef .tc main_call0_v5)
    = broadcastInDim S1600000x1 ![0] bcast_S1600000_S1600000x1_0 (Y (Proc.devRef .tc main_call0_v4)) := by
  show StableHlo.after [_, _, _, _, _, _, _, _, _] Y (Proc.devRef .tc main_call0_v5) = _
  after_results; rfl
/-- and the two tests "≥ 0" and "≤ 99999" of that column, and-ed. -/
theorem tests0 : StableHlo.after ((hostOps1_1.drop 7).take 9) Y (Proc.devRef .tc main_call0_v11)
    = andi (cmpi .sge (broadcastInDim S1600000x1 ![0] bcast_S1600000_S1600000x1_0 (Y (Proc.devRef .tc main_call0_v4))) (broadcastInDim S1600000x1 ![] bcast_S_S1600000x1 (constantI S_ 32 0#32)))
        (cmpi .sle (broadcastInDim S1600000x1 ![0] bcast_S1600000_S1600000x1_0 (Y (Proc.devRef .tc main_call0_v4))) (broadcastInDim S1600000x1 ![0, 1] bcast_S1x1_S1600000x1_0_1 (broadcastInDim S1x1 ![1] bcast_S1_S1x1_1 (constantI S1 32 99999#32)))) := by
  show StableHlo.after [_, _, _, _, _, _, _, _, _] Y (Proc.devRef .tc main_call0_v11) = _
  after_results; rfl
/-- They leave the table alone. -/
theorem col0_tbl : StableHlo.after ((hostOps1_1.drop 7).take 9) Y (Proc.devRef .tc main_v4) = Y (Proc.devRef .tc main_v4) := by
  show StableHlo.after [_, _, _, _, _, _, _, _, _] Y (Proc.devRef .tc main_v4) = _
  after_results

/-- Operations 17–23: the tests reduced per row number, the gather, and the fill where the test failed. -/
theorem pick0 : StableHlo.after (hostOps1_1.drop 16) Z (Proc.devRef .tc main_v12)
    = select (broadcastInDim S1600000x64 ![0] bcast_S1600000_S1600000x64_0
          (Host.reduce IntOp.andi (Z (Proc.devRef .tc main_call0_v11)) (constantI S_ 1 1#1) reducesTo_S1600000x1_S1600000_d1 h_S_))
        (Host.gather gather_S100000x64_S1600000x1_S1600000x64_1_0_n_n_0_1_164 (Z (Proc.devRef .tc main_v4)) (Z (Proc.devRef .tc main_call0_v5)))
        (broadcastInDim S1600000x64 ![] bcast_S_S1600000x64 (constant S_ .f32 0x7FC00000#32)) := by
  show StableHlo.after [_, _, _, _, _, _, _] Z (Proc.devRef .tc main_v12) = _
  after_results
  simp only [ofBuf_toBuf]
  -- each buffer read at its value's type is the buffer's contents
  rw [show ∀ p q r, (TRef.of (T := ⟨S1600000x1, .i1⟩) main_call0_v11 p q r).ofBuf (Z (Proc.devRef .tc main_call0_v11))
        = (Z (Proc.devRef .tc main_call0_v11) : IVec S1600000x1 1) from fun _ _ _ => rfl,
    show ∀ p q r, (TRef.of (T := ⟨S100000x64, .f32⟩) main_v4 p q r).ofBuf (Z (Proc.devRef .tc main_v4))
        = (Z (Proc.devRef .tc main_v4) : FVec F S100000x64 .f32) from fun _ _ _ => rfl,
    show ∀ p q r, (TRef.of (T := ⟨S1600000x1, .i32⟩) main_call0_v5 p q r).ofBuf (Z (Proc.devRef .tc main_call0_v5))
        = (Z (Proc.devRef .tc main_call0_v5) : IVec S1600000x1 32) from fun _ _ _ => rfl]
  -- and a value stored at the result's type is the result buffer's contents
  refine Eq.trans ((show ∀ (p : main_v12.ty = ⟨S1600000x64, .f32⟩) q r (v : FVec F S1600000x64 .f32),
      ((TRef.of (T := ⟨S1600000x64, .f32⟩) main_v12 p q r).toBuf v : (Proc.devRef (τ := τ) .tc main_v12).ty.Contents (Elt F)) = v
      from fun _ _ _ _ => rfl) _ _ _ _) ?_
  congr 1

/-- The whole take: the rows of the table at the row numbers, the fill where a number is outside the table. -/
theorem key_rows : StableHlo.after hostOps1_1 X (Proc.devRef .tc main_v12)
    = rowsAt (X (Proc.devRef .tc main_v4)) (X (Proc.devRef .tc main_v11)) := by
  have e : (hostOps1_1 : List (HloOp τ sig (Elt F))) = hostOps1_1.take 7 ++ ((hostOps1_1.drop 7).take 9 ++ hostOps1_1.drop 16) := rfl
  rw [e, after_append, after_append, pick0, tests0, col0, col0_tbl, wrap0, wrap0_tbl]
  rfl

end Cert.KernelIdeal.HostVal

end
-- ==== Proof.KI.HostTake1.lean ====
/-
  The second of the three row takes, read off its 23 host operations in three stages so that no intermediate is
  spelt twice: (1–7) the row numbers with negatives wrapped; (8–16) those numbers as a column and the two tests
  "≥ 0" and "≤ 99999" of it, and-ed; (17–23) the tests reduced per row number, the gather, and the not-a-number fill
  where the test failed. Together: the rows of the query block taken at the edges' sources.
-/
import proofs.«408360_j40956808135194_1_alg».proof.Proof.KI.Host

set_option maxRecDepth 16384

noncomputable section

namespace Cert.KernelIdeal.HostVal

open Idealize.ShloMosaic Idealize.ShloMosaic.TcCoe Idealize.SL.Sem Idealize.ShloMosaic.StableHlo
open Cert.KernelIdeal Cert.KernelIdeal.Gen Cert.KernelIdeal.Take

variable {F : FTy → Type} [FloatOps F]
variable (X Y Z : Valuation τ sig (Elt F))

/-- Operations 1–7: the row numbers with negatives wrapped. -/
theorem wrap1 : StableHlo.after (hostOps1_2.take 7) X (Proc.devRef .tc main_call1_v4) = wrapNeg (X (Proc.devRef .tc main_v9)) := by
  show StableHlo.after [_, _, _, _, _, _, _] X (Proc.devRef .tc main_call1_v4) = _
  unfold wrapNeg
  after_results; rfl
/-- They leave the table alone. -/
theorem wrap1_tbl : StableHlo.after (hostOps1_2.take 7) X (Proc.devRef .tc main_v5) = X (Proc.devRef .tc main_v5) := by
  show StableHlo.after [_, _, _, _, _, _, _] X (Proc.devRef .tc main_v5) = _
  after_results

/-- Operations 8–16: the wrapped numbers as a column, -/
theorem col1 : StableHlo.after ((hostOps1_2.drop 7).take 9) Y (Proc.devRef .tc main_call1_v5)
    = broadcastInDim S1600000x1 ![0] bcast_S1600000_S1600000x1_0 (Y (Proc.devRef .tc main_call1_v4)) := by
  show StableHlo.after [_, _, _, _, _, _, _, _, _] Y (Proc.devRef .tc main_call1_v5) = _
  after_results; rfl
/-- and the two tests "≥ 0" and "≤ 99999" of that column, and-ed. -/
theorem tests1 : StableHlo.after ((hostOps1_2.drop 7).take 9) Y (Proc.devRef .tc main_call1_v11)
    = andi (cmpi .sge (broadcastInDim S1600000x1 ![0] bcast_S1600000_S1600000x1_0 (Y (Proc.devRef .tc main_call1_v4))) (broadcastInDim S1600000x1 ![] bcast_S_S1600000x1 (constantI S_ 32 0#32)))
        (cmpi .sle (broadcastInDim S1600000x1 ![0] bcast_S1600000_S1600000x1_0 (Y (Proc.devRef .tc main_call1_v4))) (broadcastInDim S1600000x1 ![0, 1] bcast_S1x1_S1600000x1_0_1 (broadcastInDim S1x1 ![1] bcast_S1_S1x1_1 (constantI S1 32 99999#32)))) := by
  show StableHlo.after [_, _, _, _, _, _, _, _, _] Y (Proc.devRef .tc main_call1_v11) = _
  after_results; rfl
/-- They leave the table alone. -/
theorem col1_tbl : StableHlo.after ((hostOps1_2.drop 7).take 9) Y (Proc.devRef .tc main_v5) = Y (Proc.devRef .tc main_v5) := by
  show StableHlo.after [_, _, _, _, _, _, _, _, _] Y (Proc.devRef .tc main_v5) = _
  after_results

/-- Operations 17–23: the tests reduced per row number, the gather, and the fill where the test failed. -/
theorem pick1 : StableHlo.after (hostOps1_2.drop 16) Z (Proc.devRef .tc main_v13)
    = select (broadcastInDim S1600000x64 ![0] bcast_S1600000_S1600000x64_0
          (Host.reduce IntOp.andi (Z (Proc.devRef .tc main_call1_v11)) (constantI S_ 1 1#1) reducesTo_S1600000x1_S1600000_d1 h_S_))
        (Host.gather gather_S100000x64_S1600000x1_S1600000x64_1_0_n_n_0_1_164 (Z (Proc.devRef .tc main_v5)) (Z (Proc.devRef .tc main_call1_v5)))
        (broadcastInDim S1600000x64 ![] bcast_S_S1600000x64 (constant S_ .f32 0x7FC00000#32)) := by
  show StableHlo.after [_, _, _, _, _, _, _] Z (Proc.devRef .tc main_v13) = _
  after_results
  simp only [ofBuf_toBuf]
  -- each buffer read at its value's type is the buffer's contents
  rw [show ∀ p q r, (TRef.of (T := ⟨S1600000x1, .i1⟩) main_call1_v11 p q r).ofBuf (Z (Proc.devRef .tc main_call1_v11))
        = (Z (Proc.devRef .tc main_call1_v11) : IVec S1600000x1 1) from fun _ _ _ => rfl,
    show ∀ p q r, (TRef.of (T := ⟨S100000x64, .f32⟩) main_v5 p q r).ofBuf (Z (Proc.devRef .tc main_v5))
        = (Z (Proc.devRef .tc main_v5) : FVec F S100000x64 .f32) from fun _ _ _ => rfl,
    show ∀ p q r, (TRef.of (T := ⟨S1600000x1, .i32⟩) main_call1_v5 p q r).ofBuf (Z (Proc.devRef .tc main_call1_v5))
        = (Z (Proc.devRef .tc main_call1_v5) : IVec S1600000x1 32) from fun _ _ _ => rfl]
  -- and a value stored at the result's type is the result buffer's contents
  refine Eq.trans ((show ∀ (p : main_v13.ty = ⟨S1600000x64, .f32⟩) q r (v : FVec F S1600000x64 .f32),
      ((TRef.of (T := ⟨S1600000x64, .f32⟩) main_v13 p q r).toBuf v : (Proc.devRef (τ := τ) .tc main_v13).ty.Contents (Elt F)) = v
      from fun _ _ _ _ => rfl) _ _ _ _) ?_
  congr 1

/-- The whole take: the rows of the table at the row numbers, the fill where a number is outside the table. -/
theorem query_rows : StableHlo.after hostOps1_2 X (Proc.devRef .tc main_v13)
    = rowsAt (X (Proc.devRef .tc main_v5)) (X (Proc.devRef .tc main_v9)) := by
  have e : (hostOps1_2 : List (HloOp τ sig (Elt F))) = hostOps1_2.take 7 ++ ((hostOps1_2.drop 7).take 9 ++ hostOps1_2.drop 16) := rfl
  rw [e, after_append, after_append, pick1, tests1, col1, col1_tbl, wrap1, wrap1_tbl]
  rfl

end Cert.KernelIdeal.HostVal

end
-- ==== Proof.KI.HostTake2.lean ====
/-
  The third of the three row takes, read off its 23 host operations in three stages so that no intermediate is
  spelt twice: (1–7) the row numbers with negatives wrapped; (8–16) those numbers as a column and the two tests
  "≥ 0" and "≤ 99999" of it, and-ed; (17–23) the tests reduced per row number, the gather, and the not-a-number fill
  where the test failed. Together: the rows of the value block taken at the edges' sources.
-/
import proofs.«408360_j40956808135194_1_alg».proof.Proof.KI.Host

set_option maxRecDepth 16384

noncomputable section

namespace Cert.KernelIdeal.HostVal

open Idealize.ShloMosaic Idealize.ShloMosaic.TcCoe Idealize.SL.Sem Idealize.ShloMosaic.StableHlo
open Cert.KernelIdeal Cert.KernelIdeal.Gen Cert.KernelIdeal.Take

variable {F : FTy → Type} [FloatOps F]
variable (X Y Z : Valuation τ sig (Elt F))

/-- Operations 1–7: the row numbers with negatives wrapped. -/
theorem wrap2 : StableHlo.after (hostOps1_3.take 7) X (Proc.devRef .tc main_call2_v4) = wrapNeg (X (Proc.devRef .tc main_v9)) := by
  show StableHlo.after [_, _, _, _, _, _, _] X (Proc.devRef .tc main_call2_v4) = _
  unfold wrapNeg
  after_results; rfl
/-- They leave the table alone. -/
theorem wrap2_tbl : StableHlo.after (hostOps1_3.take 7) X (Proc.devRef .tc main_v6) = X (Proc.devRef .tc main_v6) := by
  show StableHlo.after [_, _, _, _, _, _, _] X (Proc.devRef .tc main_v6) = _
  after_results

/-- Operations 8–16: the wrapped numbers as a column, -/
theorem col2 : StableHlo.after ((hostOps1_3.drop 7).take 9) Y (Proc.devRef .tc main_call2_v5)
    = broadcastInDim S1600000x1 ![0] bcast_S1600000_S1600000x1_0 (Y (Proc.devRef .tc main_call2_v4)) := by
  show StableHlo.after [_, _, _, _, _, _, _, _, _] Y (Proc.devRef .tc main_call2_v5) = _
  after_results; rfl
/-- and the two tests "≥ 0" and "≤ 99999" of that column, and-ed. -/
theorem tests2 : StableHlo.after ((hostOps1_3.drop 7).take 9) Y (Proc.devRef .tc main_call2_v11)
    = andi (cmpi .sge (broadcastInDim S1600000x1 ![0] bcast_S1600000_S1600000x1_0 (Y (Proc.devRef .tc main_call2_v4))) (broadcastInDim S1600000x1 ![] bcast_S_S1600000x1 (constantI S_ 32 0#32)))
        (cmpi .sle (broadcastInDim S1600000x1 ![0] bcast_S1600000_S1600000x1_0 (Y (Proc.devRef .tc main_call2_v4))) (broadcastInDim S1600000x1 ![0, 1] bcast_S1x1_S1600000x1_0_1 (broadcastInDim S1x1 ![1] bcast_S1_S1x1_1 (constantI S1 32 99999#32)))) := by
  show StableHlo.after [_, _, _, _, _, _, _, _, _] Y (Proc.devRef .tc main_call2_v11) = _
  after_results; rfl
/-- They leave the table alone. -/
theorem col2_tbl : StableHlo.after ((hostOps1_3.drop 7).take 9) Y (Proc.devRef .tc main_v6) = Y (Proc.devRef .tc main_v6) := by
  show StableHlo.after [_, _, _, _, _, _, _, _, _] Y (Proc.devRef .tc main_v6) = _
  after_results

/-- Operations 17–23: the tests reduced per row number, the gather, and the fill where the test failed. -/
theorem pick2 : StableHlo.after (hostOps1_3.drop 16) Z (Proc.devRef .tc main_v14)
    = select (broadcastInDim S1600000x64 ![0] bcast_S1600000_S1600000x64_0
          (Host.reduce IntOp.andi (Z (Proc.devRef .tc main_call2_v11)) (constantI S_ 1 1#1) reducesTo_S1600000x1_S1600000_d1 h_S_))
        (Host.gather gather_S100000x64_S1600000x1_S1600000x64_1_0_n_n_0_1_164 (Z (Proc.devRef .tc main_v6)) (Z (Proc.devRef .tc main_call2_v5)))
        (broadcastInDim S1600000x64 ![] bcast_S_S1600000x64 (constant S_ .f32 0x7FC00000#32)) := by
  show StableHlo.after [_, _, _, _, _, _, _] Z (Proc.devRef .tc main_v14) = _
  after_results
  simp only [ofBuf_toBuf]
  -- each buffer read at its value's type is the buffer's contents
  rw [show ∀ p q r, (TRef.of (T := ⟨S1600000x1, .i1⟩) main_call2_v11 p q r).ofBuf (Z (Proc.devRef .tc main_call2_v11))
        = (Z (Proc.devRef .tc main_call2_v11) : IVec S1600000x1 1) from fun _ _ _ => rfl,
    show ∀ p q r, (TRef.of (T := ⟨S100000x64, .f32⟩) main_v6 p q r).ofBuf (Z (Proc.devRef .tc main_v6))
        = (Z (Proc.devRef .tc main_v6) : FVec F S100000x64 .f32) from fun _ _ _ => rfl,
    show ∀ p q r, (TRef.of (T := ⟨S1600000x1, .i32⟩) main_call2_v5 p q r).ofBuf (Z (Proc.devRef .tc main_call2_v5))
        = (Z (Proc.devRef .tc main_call2_v5) : IVec S1600000x1 32) from fun _ _ _ => rfl]
  -- and a value stored at the result's type is the result buffer's contents
  refine Eq.trans ((show ∀ (p : main_v14.ty = ⟨S1600000x64, .f32⟩) q r (v : FVec F S1600000x64 .f32),
      ((TRef.of (T := ⟨S1600000x64, .f32⟩) main_v14 p q r).toBuf v : (Proc.devRef (τ := τ) .tc main_v14).ty.Contents (Elt F)) = v
      from fun _ _ _ _ => rfl) _ _ _ _) ?_
  congr 1

/-- The whole take: the rows of the table at the row numbers, the fill where a number is outside the table. -/
theorem value_rows : StableHlo.after hostOps1_3 X (Proc.devRef .tc main_v14)
    = rowsAt (X (Proc.devRef .tc main_v6)) (X (Proc.devRef .tc main_v9)) := by
  have e : (hostOps1_3 : List (HloOp τ sig (Elt F))) = hostOps1_3.take 7 ++ ((hostOps1_3.drop 7).take 9 ++ hostOps1_3.drop 16) := rfl
  rw [e, after_append, after_append, pick2, tests2, col2, col2_tbl, wrap2, wrap2_tbl]
  rfl

end Cert.KernelIdeal.HostVal

end
-- ==== Proof.Spec.lean ====
/-
  The three array functions the kernel's regions compute, index by index over the extended reals, on literal shapes.
  `proj`: a 100000 × 128 matrix times a 128 × 256 matrix plus a 1 × 256 row added to every row.
  `msg`: per edge and channel, logistic(key + query + (attributes · weights + bias)) · value.
  `act`: max(a + b, 0) entry by entry.
-/
import Idealize.ShloMosaic.PureOps.Ideal
import Idealize.ShloMosaic.Lib.ValueIdx

noncomputable section

namespace Cert.Spec

open Idealize.ShloMosaic Idealize.ShloMosaic.ValueIdx

/-- A rank-2 array of extended reals with literal extents. -/
abbrev Arr (r c : Nat) : Type := (⟨2, ![r, c]⟩ : Shape).Idx → EReal

/-- The row and the column of a rank-2 index as plainly bounded numbers. -/
abbrev rowOf {r c : Nat} (i : (⟨2, ![r, c]⟩ : Shape).Idx) : Fin r := ⟨(i 0).val, idx2_lt0 i⟩
abbrev colOf {r c : Nat} (i : (⟨2, ![r, c]⟩ : Shape).Idx) : Fin c := ⟨(i 1).val, idx2_lt1 i⟩

/-- Entry (r, j) is Σₖ x[r, k] · w[k, j] + b[0, j]. -/
def proj (x : Arr 100000 128) (w : Arr 128 256) (b : Arr 1 256) : Arr 100000 256 :=
  fun i => (∑ k : Fin 128, x (ix2 (rowOf i) k) * w (ix2 k (colOf i))) + b (ix2 (0 : Fin 1) (colOf i))

/-- Entry (e, j) is logistic((kd[e, j] + qs[e, j]) + (Σₖ ea[e, k] · w[k, j] + b[0, j])) · vs[e, j]. -/
def msg (ea : Arr 1600000 64) (w : Arr 64 64) (b : Arr 1 64) (kd qs vs : Arr 1600000 64) : Arr 1600000 64 :=
  fun i => Ideal.logistic ((kd i + qs i) + ((∑ k : Fin 64, ea (ix2 (rowOf i) k) * w (ix2 k (colOf i))) + b (ix2 (0 : Fin 1) (colOf i)))) * vs i

/-- Entry (r, j) is max(agg[r, j] + skip[r, j], 0). -/
def act (agg skip : Arr 100000 64) : Arr 100000 64 := fun i => max (agg i + skip i) 0

end Cert.Spec

end
-- ==== Proof.KI.Val0.lean ====
/-
  The first region's output array after its 50 grid points, index by index: entry (r, j) of the 100000 × 256 array is
  Σₖ x[r, k] · w[k, j] + b[0, j]. First the body's stored value at an index of its block (the block product into the zero
  splat re-indexed by its one contraction coordinate, the bias row broadcast down the rows, the format changes the
  identity on extended reals); then each input block read off its array through the index maps (the feature block at
  point t is rows 2000·t … 2000·t + 1999, the weight and bias blocks are their whole arrays); then what point t writes
  back is block t of the projection, the 50 blocks cover the array (row r lies in block r / 2000), and so the array
  ends holding the projection.
-/
import proofs.«408360_j40956808135194_1_alg».proof.Proof.KI.R0
import proofs.«408360_j40956808135194_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-! ## The block product's operand indices -/

/-- The left operand's row is the output's row. -/
private theorem blockDot_lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- The left operand's column is the contraction index. -/
private theorem blockDot_lhs_col (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- The right operand's row is the contraction index. -/
private theorem blockDot_rhs_row (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- The right operand's column is the output's column. -/
private theorem blockDot_rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The block product into the zero splat, at (p, q): the sum over k of x[p, k] · w[k, q]. -/
private theorem blockDot_apply (x : FVec Ideal S2000x128 .bf16) (w : FVec Ideal S128x256 .bf16) (p : Fin 2000) (q : Fin 256) :
    matmul dot_S2000x128_S128x256_S2000x256_1_0_0_1_n_n none x w (constant (F := Ideal) S2000x256 .f32 0x00000000#32) (ix2 p q) = ∑ k : Fin 128, x (ix2 p k) * w (ix2 k q) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact blockDot_lhs_row _ _
    | ⟨1, _⟩ => exact (blockDot_lhs_col _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (blockDot_rhs_row _ _).trans hk
    | ⟨1, _⟩ => exact blockDot_rhs_col _ _)
  rw [el, er]

/-- The body's stored value at (p, q): Σₖ x[p, k] · w[k, q] + b[0, q]. -/
private theorem pay_apply (x : Vec Ideal S2000x128 .f32) (w : Vec Ideal S128x256 .f32) (b : Vec Ideal S1x256 .f32) (p : Fin 2000) (q : Fin 256) :
    (k0_pay1 (F := Ideal) x w b) (ix2 p q) = (∑ k : Fin 128, x (ix2 p k) * w (ix2 k q)) + b (ix2 (0 : Fin 1) q) := by
  unfold k0_pay1
  rw [addf_apply, blockDot_apply, broadcastTo_1b_ab_apply, shapeCast_self, shapeCast_self]
  rfl

/-! ## The output block as a function of the three input blocks -/

private theorem zero_offsets : (![0, 0] : Fin 2 → Nat) = fun _ => 0 := funext fun a => by fin_cases a <;> rfl

/-- The output block at (p, q): Σₖ x[p, k] · w[k, q] + b[0, q] over the three input blocks. -/
private theorem proj0_apply (x : Vec Ideal S2000x128 .f32) (w : Vec Ideal S128x256 .f32) (b : Vec Ideal S1x256 .f32) (p : Fin 2000) (q : Fin 256) :
    proj0 (F := Ideal) x w b (ix2 p q) = (∑ k : Fin 128, x (ix2 p k) * w (ix2 k q)) + b (ix2 (0 : Fin 1) q) := by
  unfold proj0
  rw [View.canon_unit_zero zero_offsets]
  simp only [View.ld_unit_zero (S := S2000x128) zero_offsets, View.ld_unit_zero (S := S128x256) zero_offsets, View.ld_unit_zero (S := S1x256) zero_offsets]
  exact pay_apply x w b p q

/-! ## The index maps, and each input block read off its array -/

/-- The printed index maps over the 50 points: the features' and the output's block index is (t, 0), the weights' and
    the bias row's is (0, 0). -/
private theorem index_maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point t holds, at (p, k), the feature array at (2000·t + p, k). -/
private theorem features_blk_apply (c : Dev nD) (t : Fin cfg0.N) (p : Fin 2000) (k : Fin 128) (r : Fin 100000) (hr : r.val = 2000 * t.val + p.val) :
    blk0 V c 0 t (ix2 p k) = V c main_arg0 (ix2 r k) := by
  obtain ⟨e0, e1, -⟩ := index_maps0 t
  unfold blk0
  show V c main_arg0 (((cfg0.win 0).blk t).view.emb (ix2 p k)) = V c main_arg0 (ix2 r k)
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The weight block at every point is the weight array. -/
private theorem weights_blk_apply (c : Dev nD) (t : Fin cfg0.N) (k : Fin 128) (q : Fin 256) :
    blk0 V c 1 t (ix2 k q) = V c main_v0 (ix2 k q) := by
  obtain ⟨-, -, e2, e3, -⟩ := index_maps0 t
  unfold blk0
  show V c main_v0 (((cfg0.win 1).blk t).view.emb (ix2 k q)) = V c main_v0 (ix2 k q)
  congr 1
  funext a
  apply Fin.ext
  match a with
  | ⟨0, _⟩ => show win0_1.index t (0 : Fin 2) * 128 + 1 * k.val = k.val; rw [e2]; omega
  | ⟨1, _⟩ => show win0_1.index t (1 : Fin 2) * 256 + 1 * q.val = q.val; rw [e3]; omega

/-- The bias block at every point is the bias row. -/
private theorem bias_blk_apply (c : Dev nD) (t : Fin cfg0.N) (z : Fin 1) (q : Fin 256) :
    blk0 V c 2 t (ix2 z q) = V c main_v2 (ix2 z q) := by
  obtain ⟨-, -, -, -, e4, e5, -⟩ := index_maps0 t
  unfold blk0
  show V c main_v2 (((cfg0.win 2).blk t).view.emb (ix2 z q)) = V c main_v2 (ix2 z q)
  congr 1
  funext a
  apply Fin.ext
  match a with
  | ⟨0, _⟩ => show win0_2.index t (0 : Fin 2) * 1 + 1 * z.val = z.val; rw [e4]; omega
  | ⟨1, _⟩ => show win0_2.index t (1 : Fin 2) * 256 + 1 * q.val = q.val; rw [e5]; omega

/-! ## What a point writes back, the cover, and the array after the region -/

/-- Point t writes back block t of the projection of the arrays the region finds. -/
private theorem flushed0_eq (c : Dev nD) (t : Fin cfg0.N) :
    (dat0 (F := Ideal) V c).flushed 3 t
      = ((cfg0.win 3).blk t).view.read (Elt Ideal) (Cert.Spec.proj (V c main_arg0) (V c main_v0) (V c main_v2)) := by
  show (cfg0.win 3).cut (grid0.coords t) ((dat0 (F := Ideal) V c).after 3 t) = _
  rw [dat0_after3]
  obtain ⟨-, -, -, -, -, -, e6, e7⟩ := index_maps0 t
  funext j
  have hp : (j 0).val < 2000 := (j 0).isLt
  have hq : (j 1).val < 256 := (j 1).isLt
  have hN : t.val < 50 := t.isLt
  have hx : (cfg0.win 3).xinj (grid0.coords t) j = ix2 (⟨(j 0).val, hp⟩ : Fin 2000) (⟨(j 1).val, hq⟩ : Fin 256) :=
    funext fun a => by match a with | ⟨0, _⟩ => rfl | ⟨1, _⟩ => rfl
  show proj0 (F := Ideal) (blk0 V c 0 t) (blk0 V c 1 t) (blk0 V c 2 t) ((cfg0.win 3).xinj (grid0.coords t) j)
    = Cert.Spec.proj (V c main_arg0) (V c main_v0) (V c main_v2) (((cfg0.win 3).blk t).view.emb j)
  rw [hx, proj0_apply]
  unfold Cert.Spec.proj
  have hr : (Cert.Spec.rowOf (r := 100000) (c := 256) (((cfg0.win 3).blk t).view.emb j)).val = 2000 * t.val + (j 0).val := by
    show win0_3.index t (0 : Fin 2) * 2000 + 1 * (j 0).val = _
    rw [e6]; omega
  have hc : Cert.Spec.colOf (r := 100000) (c := 256) (((cfg0.win 3).blk t).view.emb j) = (⟨(j 1).val, hq⟩ : Fin 256) := Fin.ext (by
    show win0_3.index t (1 : Fin 2) * 256 + 1 * (j 1).val = (j 1).val
    rw [e7]; omega)
  rw [hc, bias_blk_apply]
  congr 1
  refine Finset.sum_congr rfl fun k _ => ?_
  rw [features_blk_apply V c t ⟨(j 0).val, hp⟩ k _ hr, weights_blk_apply]

/-- An index of the array is in point t's block iff each coordinate is in the block's range on its axis. -/
private theorem mem_out_blk (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v3).slice (win0_3.rect t)).set ↔ _
  rw [View.set_slice_whole, Rect.mem_set_unit]
  exact Iff.rfl

/-- Row r of the array lies in the block of point r / 2000. -/
private theorem out_blocks_cover (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have ht : (i 0).val / 2000 < cfg0.N := by show (i 0).val / 2000 < 50; omega
  obtain ⟨-, -, -, -, -, -, e6, e7⟩ := index_maps0 ⟨(i 0).val / 2000, ht⟩
  refine ⟨⟨(i 0).val / 2000, ht⟩, flush0_3 _, ?_⟩
  rw [mem_out_blk]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, ht⟩ (1 : Fin 2) * 256 ≤ (i 1).val ∧ (i 1).val < win0_3.index ⟨(i 0).val / 2000, ht⟩ (1 : Fin 2) * 256 + 256
    rw [e7]; omega

theorem arr0 (c : Dev nD) :
    (dat0 (F := Ideal) V c).arrAt 3 cfg0.N = Cert.Spec.proj (V c main_arg0) (V c main_v0) (V c main_v2) :=
  (dat0 (F := Ideal) V c).arrAt_eq_of_cover 3 (Cert.Spec.proj (V c main_arg0) (V c main_v0) (V c main_v2))
    (fun t _ => flushed0_eq V c t) out_blocks_cover

end Cert.KernelIdeal.Val

end
-- ==== Proof.KI.Val1.lean ====
import proofs.«408360_j40956808135194_1_alg».proof.Proof.KI.R1
import proofs.«408360_j40956808135194_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-! ## The projection read at an index -/

/-- The left operand of the product is read at the output's row … -/
private theorem proj_lhs_row (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- … and the contraction index as its column; -/
private theorem proj_lhs_col (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- the right operand at the contraction index as its row … -/
private theorem proj_rhs_row (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
/-- … and the output's column. -/
private theorem proj_rhs_col (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The product of a 4000 × 64 block by the 64 × 64 weights, accumulated into zero, at (p, q): Σₖ x[p, k] · y[k, q]. -/
private theorem proj_apply (x : FVec Ideal S4000x64 .bf16) (y : FVec Ideal S64x64 .bf16) (p : Fin 4000) (q : Fin 64) :
    matmul dot_S4000x64_S64x64_S4000x64_1_0_0_1_n_n none x y (constant (F := Ideal) S4000x64 .f32 0x00000000#32) (ix2 p q)
      = ∑ k : Fin 64, x (ix2 p k) * y (ix2 k q) := by
  simp only [matmul]
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact proj_lhs_row _ _
    | ⟨1, _⟩ => exact (proj_lhs_col _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (proj_rhs_row _ _).trans hk
    | ⟨1, _⟩ => exact proj_rhs_col _ _)
  rw [el, er]

/-! ## The body's arithmetic at an index -/

/-- What the body stores at (p, q) of its block, from the six blocks it loaded. -/
private theorem pay_apply (ea : Vec Ideal S4000x64 .f32) (w : Vec Ideal S64x64 .f32) (b : Vec Ideal S1x64 .f32) (kd qs vs : Vec Ideal S4000x64 .f32)
    (p : Fin 4000) (q : Fin 64) :
    k1_pay1 ea w b kd qs vs (ix2 p q)
      = Ideal.logistic ((kd (ix2 p q) + qs (ix2 p q)) + ((∑ k : Fin 64, ea (ix2 p k) * w (ix2 k q)) + b (ix2 (0 : Fin 1) q))) * vs (ix2 p q) := by
  unfold k1_pay1
  simp only [shapeCast_self]
  show Ideal.logistic ((kd (ix2 p q) + qs (ix2 p q)) + (matmul dot_S4000x64_S64x64_S4000x64_1_0_0_1_n_n none (truncf .bf16 ea bitsLt_bf16_f32) (truncf .bf16 w bitsLt_bf16_f32) (constant (F := Ideal) S4000x64 .f32 0x00000000#32) (ix2 p q) + broadcastTo S4000x64 b broadcasts_S1x64_S4000x64 (ix2 p q))) * vs (ix2 p q) = _
  rw [proj_apply, broadcastTo_1b_ab_apply]
  rfl

/-- The same at any index of the block, its row and column taken as bounded numbers. -/
private theorem pay_at (ea : Vec Ideal S4000x64 .f32) (w : Vec Ideal S64x64 .f32) (b : Vec Ideal S1x64 .f32) (kd qs vs : Vec Ideal S4000x64 .f32)
    (y : S4000x64.Idx) :
    k1_pay1 ea w b kd qs vs y
      = Ideal.logistic ((kd y + qs y) + ((∑ k : Fin 64, ea (ix2 (Spec.rowOf y) k) * w (ix2 k (Spec.colOf y))) + b (ix2 (0 : Fin 1) (Spec.colOf y)))) * vs y := by
  obtain ⟨p, q, rfl⟩ : ∃ (p : Fin 4000) (q : Fin 64), y = ix2 p q := ⟨y 0, y 1, eq_ix2 y⟩
  exact pay_apply ea w b kd qs vs p q

/-- The message at an array index `i`, from the six arrays read at indices that are `i`, `i`'s row with each column,
    each row with `i`'s column, and row 0 with `i`'s column. -/
private theorem msg_at_block (A0 : Spec.Arr 1600000 64) (A1 : Spec.Arr 64 64) (A2 : Spec.Arr 1 64) (A3 A4 A5 : Spec.Arr 1600000 64)
    (i i3 i4 i5 : S1600000x64.Idx) (i0 : Fin 64 → S1600000x64.Idx) (i1 : Fin 64 → S64x64.Idx) (i2 : S1x64.Idx)
    (h3 : i3 = i) (h4 : i4 = i) (h5 : i5 = i) (h0 : ∀ k, i0 k = ix2 (Spec.rowOf i) k) (h1 : ∀ k, i1 k = ix2 k (Spec.colOf i))
    (h2 : i2 = ix2 (0 : Fin 1) (Spec.colOf i)) :
    Ideal.logistic ((A3 i3 + A4 i4) + ((∑ k : Fin 64, A0 (i0 k) * A1 (i1 k)) + A2 i2)) * A5 i5 = Spec.msg A0 A1 A2 A3 A4 A5 i := by
  subst h3 h4 h5 h2
  simp only [h0, h1]
  rfl

/-! ## From the blocks to the array -/

private theorem zero_offsets : (![0, 0] : Fin 2 → Nat) = fun _ => 0 := funext fun a => by fin_cases a <;> rfl

/-- The printed index maps, decided over the 400 points: the five row-block windows are at block row `t` and block
    column 0, the weights and the bias row at block (0, 0). -/
private theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the message array of the six arrays the region finds. -/
private theorem flushed_eq (c : Dev nD) (t : Fin cfg1.N) :
    (dat1 (F := Ideal) V c).flushed 6 t = ((cfg1.win 6).blk t).view.read (Elt Ideal) (Cert.Spec.msg (V c main_arg2) (V c main_arg10) (V c main_v15) (V c main_v12) (V c main_v13) (V c main_v14)) := by
  show (cfg1.win 6).cut (grid1.coords t) ((dat1 V c).after 6 t) = _
  rw [dat1_after6]
  unfold msg1
  rw [View.canon_unit_zero zero_offsets]
  simp only [View.ld_unit_zero (S := S4000x64) zero_offsets, View.ld_unit_zero (S := S64x64) zero_offsets, View.ld_unit_zero (S := S1x64) zero_offsets]
  funext j
  have hp : (j 0).val < 4000 := (j 0).isLt
  have hq : (j 1).val < 64 := (j 1).isLt
  obtain ⟨a00, a01, a10, a11, a20, a21, a30, a31, a40, a41, a50, a51, a60, a61⟩ := block_indices t
  refine (pay_at _ _ _ _ _ _ _).trans ?_
  -- the three row blocks the body reads element by element sit where the output's block sits
  have e3 : ((cfg1.win 3).blk t).view.emb ((win1 6).xinj (grid1.coords t) j) = ((cfg1.win 6).blk t).view.emb j := by
    funext a; apply Fin.ext
    match a with
    | ⟨0, _⟩ => show win1_3.index t (0 : Fin 2) * 4000 + 1 * (j 0).val = win1_6.index t (0 : Fin 2) * 4000 + 1 * (j 0).val; omega
    | ⟨1, _⟩ => show win1_3.index t (1 : Fin 2) * 64 + 1 * (j 1).val = win1_6.index t (1 : Fin 2) * 64 + 1 * (j 1).val; omega
  have e4 : ((cfg1.win 4).blk t).view.emb ((win1 6).xinj (grid1.coords t) j) = ((cfg1.win 6).blk t).view.emb j := by
    funext a; apply Fin.ext
    match a with
    | ⟨0, _⟩ => show win1_4.index t (0 : Fin 2) * 4000 + 1 * (j 0).val = win1_6.index t (0 : Fin 2) * 4000 + 1 * (j 0).val; omega
    | ⟨1, _⟩ => show win1_4.index t (1 : Fin 2) * 64 + 1 * (j 1).val = win1_6.index t (1 : Fin 2) * 64 + 1 * (j 1).val; omega
  have e5 : ((cfg1.win 5).blk t).view.emb ((win1 6).xinj (grid1.coords t) j) = ((cfg1.win 6).blk t).view.emb j := by
    funext a; apply Fin.ext
    match a with
    | ⟨0, _⟩ => show win1_5.index t (0 : Fin 2) * 4000 + 1 * (j 0).val = win1_6.index t (0 : Fin 2) * 4000 + 1 * (j 0).val; omega
    | ⟨1, _⟩ => show win1_5.index t (1 : Fin 2) * 64 + 1 * (j 1).val = win1_6.index t (1 : Fin 2) * 64 + 1 * (j 1).val; omega
  -- the attribute block's row is the output's row, its columns the array's columns
  have e0 : ∀ k : Fin 64, ((cfg1.win 0).blk t).view.emb (ix2 (Spec.rowOf (r := 4000) (c := 64) ((win1 6).xinj (grid1.coords t) j)) k)
      = ix2 (Spec.rowOf (r := 1600000) (c := 64) (((cfg1.win 6).blk t).view.emb j)) k := fun k => by
    funext a; apply Fin.ext
    match a with
    | ⟨0, _⟩ => show win1_0.index t (0 : Fin 2) * 4000 + 1 * (j 0).val = win1_6.index t (0 : Fin 2) * 4000 + 1 * (j 0).val; omega
    | ⟨1, _⟩ => show win1_0.index t (1 : Fin 2) * 64 + 1 * k.val = k.val; omega
  -- the weights and the bias row are their whole arrays
  have e1 : ∀ k : Fin 64, ((cfg1.win 1).blk t).view.emb (ix2 k (Spec.colOf (r := 4000) (c := 64) ((win1 6).xinj (grid1.coords t) j)))
      = ix2 k (Spec.colOf (r := 1600000) (c := 64) (((cfg1.win 6).blk t).view.emb j)) := fun k => by
    funext a; apply Fin.ext
    match a with
    | ⟨0, _⟩ => show win1_1.index t (0 : Fin 2) * 64 + 1 * k.val = k.val; omega
    | ⟨1, _⟩ => show win1_1.index t (1 : Fin 2) * 64 + 1 * (j 1).val = win1_6.index t (1 : Fin 2) * 64 + 1 * (j 1).val; omega
  have e2 : ((cfg1.win 2).blk t).view.emb (ix2 (0 : Fin 1) (Spec.colOf (r := 4000) (c := 64) ((win1 6).xinj (grid1.coords t) j)))
      = ix2 (0 : Fin 1) (Spec.colOf (r := 1600000) (c := 64) (((cfg1.win 6).blk t).view.emb j)) := by
    funext a; apply Fin.ext
    match a with
    | ⟨0, _⟩ => show win1_2.index t (0 : Fin 2) * 1 + 1 * 0 = 0; omega
    | ⟨1, _⟩ => show win1_2.index t (1 : Fin 2) * 64 + 1 * (j 1).val = win1_6.index t (1 : Fin 2) * 64 + 1 * (j 1).val; omega
  exact msg_at_block (V c main_arg2) (V c main_arg10) (V c main_v15) (V c main_v12) (V c main_v13) (V c main_v14)
    (((cfg1.win 6).blk t).view.emb j) _ _ _ _ _ _ e3 e4 e5 e0 e1 e2

/-- An index of the array is in point `t`'s block iff each coordinate is in the block's range on its axis. -/
private theorem mem_block (t : Fin cfg1.N) (i : S1600000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v16).slice (win1_6.rect t)).set ↔ _
  rw [View.set_slice_whole, Rect.mem_set_unit]
  exact Iff.rfl

/-- The 400 blocks of 4000 rows fill the array: row `r` lies in the block of point `r / 4000`. -/
private theorem blocks_cover (i : S1600000x64.Idx) : ∃ t : Fin cfg1.N, (cfg1.win 6).flush t = true ∧ i ∈ ((cfg1.win 6).blk t).view.set := by
  have hi0 : (i 0).val < 1600000 := (i 0).isLt
  have hi1 : (i 1).val < 64 := (i 1).isLt
  have hlt : (i 0).val / 4000 < 400 := by omega
  obtain ⟨-, -, -, -, -, -, -, -, -, -, -, -, a60, a61⟩ := block_indices (⟨(i 0).val / 4000, hlt⟩ : Fin cfg1.N)
  have a60' : win1_6.index (⟨(i 0).val / 4000, hlt⟩ : Fin cfg1.N) (0 : Fin 2) = (i 0).val / 4000 := a60
  refine ⟨⟨(i 0).val / 4000, hlt⟩, flush1_6 _, ?_⟩
  rw [mem_block]
  intro a
  match a with
  | ⟨0, _⟩ => show win1_6.index (⟨(i 0).val / 4000, hlt⟩ : Fin cfg1.N) (0 : Fin 2) * 4000 ≤ (i 0).val ∧ (i 0).val < win1_6.index (⟨(i 0).val / 4000, hlt⟩ : Fin cfg1.N) (0 : Fin 2) * 4000 + 4000; omega
  | ⟨1, _⟩ => show win1_6.index (⟨(i 0).val / 4000, hlt⟩ : Fin cfg1.N) (1 : Fin 2) * 64 ≤ (i 1).val ∧ (i 1).val < win1_6.index (⟨(i 0).val / 4000, hlt⟩ : Fin cfg1.N) (1 : Fin 2) * 64 + 64; omega

/-- After the 400 points the region's output array holds the message of every edge: every point writes back its block
    of that one array function, and the blocks fill the array. -/
theorem arr1 (c : Dev nD) :
    (dat1 (F := Ideal) V c).arrAt 6 cfg1.N
      = Cert.Spec.msg (V c main_arg2) (V c main_arg10) (V c main_v15) (V c main_v12) (V c main_v13) (V c main_v14) :=
  (dat1 (F := Ideal) V c).arrAt_eq_of_cover 6 _ (fun t _ => flushed_eq V c t) blocks_cover

end Cert.KernelIdeal.Val

end
-- ==== Proof.KI.Val2.lean ====
import proofs.«408360_j40956808135194_1_alg».proof.Proof.KI.R2
import proofs.«408360_j40956808135194_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- The zero offsets of the whole-block rectangle, as a constant function. -/
private theorem zero_offsets : (![0, 0] : Fin 2 → Nat) = fun _ => 0 := funext fun a => by fin_cases a <;> rfl

/-- Over the extended reals the body's result block is max(agg + skip, 0) entry by entry. -/
private theorem relu2_apply (agg skip : Vec Ideal S2000x64 .f32) (j : S2000x64.Idx) :
    relu2 agg skip j = max (agg j + skip j) 0 := by
  unfold relu2
  rw [View.canon_unit_zero zero_offsets]
  simp only [View.ld_unit_zero (S := S2000x64) zero_offsets]
  unfold k2_pay1
  simp only [shapeCast_self]
  show FloatOps.maximumf (FloatOps.addf (agg j) (skip j)) (FloatOps.ofBits (F := Ideal) .f32 0x00000000#32) = _
  rw [Ideal.maximumf_def, Ideal.addf_def, Ideal.ofBits_def, Ideal.ofBits_zero_f32]

/-- Each window's block index at point t is (t, 0). -/
private theorem block_index : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = t.val ∧ win2_2.index t (1 : Fin 2) = 0 :=
  (by decide +kernel : ∀ t : Fin grid2.N, _)

/-- What point t writes back is block t of the array function max(agg + skip, 0): the three windows show the same
    rows of their arrays, so the input blocks are the arguments read through the output's rectangle. -/
private theorem flushed2_eq (c : Dev nD) (t : Fin cfg2.N) :
    (dat2 (F := Ideal) V c).flushed 2 t
      = ((cfg2.win 2).blk t).view.read (Elt Ideal) (Cert.Spec.act (V c main_v19) (V c main_v7)) := by
  show (cfg2.win 2).cut (grid2.coords t) ((dat2 V c).after 2 t) = _
  rw [dat2_after2]
  funext j
  show relu2 (blk2 V c 0 t) (blk2 V c 1 t) j
      = Cert.Spec.act (V c main_v19) (V c main_v7) (((cfg2.win 2).blk t).view.emb j)
  rw [relu2_apply]
  obtain ⟨a0, a1, b0, b1, o0, o1⟩ := block_index t
  have h0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 2000 + 1 * (j 0).val = win2_2.index t (0 : Fin 2) * 2000 + 1 * (j 0).val; omega
    | ⟨1, _⟩ => show win2_1.index t (1 : Fin 2) * 64 + 1 * (j 1).val = win2_2.index t (1 : Fin 2) * 64 + 1 * (j 1).val; omega
  have e0 : blk2 V c 0 t j = V c main_v19 (((cfg2.win 2).blk t).view.emb j) := by
    show V c main_v19 (((cfg2.win 0).blk t).view.emb j) = _
    rw [h0]
  have e1 : blk2 V c 1 t j = V c main_v7 (((cfg2.win 2).blk t).view.emb j) := by
    show V c main_v7 (((cfg2.win 1).blk t).view.emb j) = _
    rw [h1]
  rw [e0, e1]
  rfl

/-- An index of the array is in point t's block iff each coordinate is in the block's range on its axis. -/
private theorem mem_blk2 (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v20).slice (win2_2.rect t)).set ↔ _
  rw [View.set_slice_whole, Rect.mem_set_unit]
  exact Iff.rfl

/-- Every index of the array lies in the block of the point its row falls under. -/
private theorem blocks_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := ⟨(i 0).val / 2000, by show _ < 50; omega⟩
  obtain ⟨-, -, -, -, o0, o1⟩ := block_index t
  have ht : t.val = (i 0).val / 2000 := rfl
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The output array after the fifty points: every block is written back and the blocks tile the array, so it
    holds max(agg + skip, 0) at every index. -/
theorem arr2 (c : Dev nD) :
    (dat2 (F := Ideal) V c).arrAt 2 cfg2.N = Cert.Spec.act (V c main_v19) (V c main_v7) := by
  exact (dat2 (F := Ideal) V c).arrAt_eq_of_cover 2 (Cert.Spec.act (V c main_v19) (V c main_v7))
    (fun t _ => flushed2_eq V c t) blocks_cover

end Cert.KernelIdeal.Val

end
-- ==== Proof.Bridge.lean ====
/-
  The identity between arrays of extended reals that joins what the kernel's first region computes to the reference's
  four projections.
  The fused projection: multiplying by the four 128 × 64 weight matrices laid side by side and adding the four
      biases laid end to end, then keeping columns 64·b … 64·b + 63, is multiplying by the b-th weight matrix and adding
      the b-th bias: a sum over the same 128 terms.
-/
import proofs.«408360_j40956808135194_1_alg».proof.KernelIdeal
import proofs.«408360_j40956808135194_1_alg».proof.Proof.Gen.KernelIdeal
import proofs.«408360_j40956808135194_1_alg».proof.Proof.Gen.ReferenceIdeal.Read
import proofs.«408360_j40956808135194_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Cert.KernelIdeal.Facts₀ Cert.KernelIdeal.Facts

/-- The four weight matrices side by side: 128 × 256. -/
abbrev wAll (w4 w6 w8 w12 : FVec Ideal Cert.KernelIdeal.S128x64 .f32) : FVec Ideal Cert.KernelIdeal.S128x256 .f32 :=
  concatenate Cert.KernelIdeal.S128x256 1 [⟨Cert.KernelIdeal.S128x64, w4⟩, ⟨Cert.KernelIdeal.S128x64, w6⟩, ⟨Cert.KernelIdeal.S128x64, w8⟩, ⟨Cert.KernelIdeal.S128x64, w12⟩]
    concatenates_S128x64_S128x64_S128x64_S128x64_S128x256_d1

/-- The four biases end to end, as one 1 × 256 row. -/
abbrev bAll (b5 b7 b9 b13 : FVec Ideal Cert.KernelIdeal.S64 .f32) : FVec Ideal Cert.KernelIdeal.S1x256 .f32 :=
  shapeCast Cert.KernelIdeal.S1x256
    (concatenate Cert.KernelIdeal.S256 0 [⟨Cert.KernelIdeal.S64, b5⟩, ⟨Cert.KernelIdeal.S64, b7⟩, ⟨Cert.KernelIdeal.S64, b9⟩, ⟨Cert.KernelIdeal.S64, b13⟩]
      concatenates_S64_S64_S64_S64_S256_d0)
    shapeCasts_S256_S1x256

section Pieces

variable (w4 w6 w8 w12 : FVec Ideal Cert.KernelIdeal.S128x64 .f32) (b5 b7 b9 b13 : FVec Ideal Cert.KernelIdeal.S64 .f32)

/-- Column `0 + j` of the four matrices laid side by side is column `j` of the first one. -/
private theorem wAll_cols0 (k : Fin 128) (j : Fin 64) :
    wAll w4 w6 w8 w12 (ValueIdx.ix2 k (⟨0 + j.val, by omega⟩ : Fin 256)) = w4 (ValueIdx.ix2 k j) :=
  concatenate_apply_piece (t := Cert.KernelIdeal.S128x256) _ _ _ _ 0 (by show (0 : Nat) < 4; omega)
    Cert.KernelIdeal.S128x64 w4 rfl rfl 0 rfl (ValueIdx.ix2 k j)
    (fun b hb => by match b with | ⟨0, _⟩ => rfl | ⟨1, _⟩ => exact absurd rfl hb) rfl

/-- Column `64 + j` of the four matrices laid side by side is column `j` of the second one. -/
private theorem wAll_cols1 (k : Fin 128) (j : Fin 64) :
    wAll w4 w6 w8 w12 (ValueIdx.ix2 k (⟨64 + j.val, by omega⟩ : Fin 256)) = w6 (ValueIdx.ix2 k j) :=
  concatenate_apply_piece (t := Cert.KernelIdeal.S128x256) _ _ _ _ 1 (by show (1 : Nat) < 4; omega)
    Cert.KernelIdeal.S128x64 w6 rfl rfl 64 rfl (ValueIdx.ix2 k j)
    (fun b hb => by match b with | ⟨0, _⟩ => rfl | ⟨1, _⟩ => exact absurd rfl hb) rfl

/-- Column `128 + j` of the four matrices laid side by side is column `j` of the third one. -/
private theorem wAll_cols2 (k : Fin 128) (j : Fin 64) :
    wAll w4 w6 w8 w12 (ValueIdx.ix2 k (⟨128 + j.val, by omega⟩ : Fin 256)) = w8 (ValueIdx.ix2 k j) :=
  concatenate_apply_piece (t := Cert.KernelIdeal.S128x256) _ _ _ _ 2 (by show (2 : Nat) < 4; omega)
    Cert.KernelIdeal.S128x64 w8 rfl rfl 128 rfl (ValueIdx.ix2 k j)
    (fun b hb => by match b with | ⟨0, _⟩ => rfl | ⟨1, _⟩ => exact absurd rfl hb) rfl

/-- Column `192 + j` of the four matrices laid side by side is column `j` of the fourth one. -/
private theorem wAll_cols3 (k : Fin 128) (j : Fin 64) :
    wAll w4 w6 w8 w12 (ValueIdx.ix2 k (⟨192 + j.val, by omega⟩ : Fin 256)) = w12 (ValueIdx.ix2 k j) :=
  concatenate_apply_piece (t := Cert.KernelIdeal.S128x256) _ _ _ _ 3 (by show (3 : Nat) < 4; omega)
    Cert.KernelIdeal.S128x64 w12 rfl rfl 192 rfl (ValueIdx.ix2 k j)
    (fun b hb => by match b with | ⟨0, _⟩ => rfl | ⟨1, _⟩ => exact absurd rfl hb) rfl

/-- The one-row bias at column `c` is the length-256 vector of the four biases end to end at `c`: both sit at
    row-major position `c`. -/
private theorem bAll_row (c : Fin 256) :
    bAll b5 b7 b9 b13 (ValueIdx.ix2 (0 : Fin 1) c)
      = concatenate Cert.KernelIdeal.S256 0 [⟨Cert.KernelIdeal.S64, b5⟩, ⟨Cert.KernelIdeal.S64, b7⟩, ⟨Cert.KernelIdeal.S64, b9⟩, ⟨Cert.KernelIdeal.S64, b13⟩]
          concatenates_S64_S64_S64_S64_S256_d0 (ValueIdx.ix1 c) :=
  shapeCast_apply _ shapeCasts_S256_S1x256 _ (ValueIdx.ix1 c)
    (by rw [Shape.rowMajor_val_two, Shape.rowMajor_val_one]; show c.val = 0 * 256 + c.val; omega)

/-- Entry `0 + j` of the one-row bias is entry `j` of the first bias. -/
private theorem bAll_cols0 (j : Fin 64) :
    bAll b5 b7 b9 b13 (ValueIdx.ix2 (0 : Fin 1) (⟨0 + j.val, by omega⟩ : Fin 256)) = b5 (ValueIdx.ix1 j) := by
  rw [bAll_row]
  exact concatenate_apply_piece (t := Cert.KernelIdeal.S256) _ _ _ _ 0 (by show (0 : Nat) < 4; omega)
    Cert.KernelIdeal.S64 b5 rfl rfl 0 rfl (ValueIdx.ix1 j)
    (fun b hb => by match b with | ⟨0, _⟩ => exact absurd rfl hb) rfl

/-- Entry `64 + j` of the one-row bias is entry `j` of the second bias. -/
private theorem bAll_cols1 (j : Fin 64) :
    bAll b5 b7 b9 b13 (ValueIdx.ix2 (0 : Fin 1) (⟨64 + j.val, by omega⟩ : Fin 256)) = b7 (ValueIdx.ix1 j) := by
  rw [bAll_row]
  exact concatenate_apply_piece (t := Cert.KernelIdeal.S256) _ _ _ _ 1 (by show (1 : Nat) < 4; omega)
    Cert.KernelIdeal.S64 b7 rfl rfl 64 rfl (ValueIdx.ix1 j)
    (fun b hb => by match b with | ⟨0, _⟩ => exact absurd rfl hb) rfl

/-- Entry `128 + j` of the one-row bias is entry `j` of the third bias. -/
private theorem bAll_cols2 (j : Fin 64) :
    bAll b5 b7 b9 b13 (ValueIdx.ix2 (0 : Fin 1) (⟨128 + j.val, by omega⟩ : Fin 256)) = b9 (ValueIdx.ix1 j) := by
  rw [bAll_row]
  exact concatenate_apply_piece (t := Cert.KernelIdeal.S256) _ _ _ _ 2 (by show (2 : Nat) < 4; omega)
    Cert.KernelIdeal.S64 b9 rfl rfl 128 rfl (ValueIdx.ix1 j)
    (fun b hb => by match b with | ⟨0, _⟩ => exact absurd rfl hb) rfl

/-- Entry `192 + j` of the one-row bias is entry `j` of the fourth bias. -/
private theorem bAll_cols3 (j : Fin 64) :
    bAll b5 b7 b9 b13 (ValueIdx.ix2 (0 : Fin 1) (⟨192 + j.val, by omega⟩ : Fin 256)) = b13 (ValueIdx.ix1 j) := by
  rw [bAll_row]
  exact concatenate_apply_piece (t := Cert.KernelIdeal.S256) _ _ _ _ 3 (by show (3 : Nat) < 4; omega)
    Cert.KernelIdeal.S64 b13 rfl rfl 192 rfl (ValueIdx.ix1 j)
    (fun b hb => by match b with | ⟨0, _⟩ => exact absurd rfl hb) rfl

end Pieces

/-- Columns `c … c + 63` of the fused projection, when those columns of the wide matrix are the matrix `w` and those
    entries of the wide bias row are the vector `bias`: entry (r, j) is Σₖ x[r, k] · w[k, j] + bias[j], which is the
    reference's stage "x times w, plus bias broadcast over the rows" read at (r, j) — the same 128 terms, one by one. -/
private theorem proj_cols (x : FVec Ideal Cert.KernelIdeal.S100000x128 .f32)
    (W : FVec Ideal Cert.KernelIdeal.S128x256 .f32) (B : FVec Ideal Cert.KernelIdeal.S1x256 .f32)
    (w : FVec Ideal Cert.KernelIdeal.S128x64 .f32) (bias : FVec Ideal Cert.KernelIdeal.S64 .f32)
    (c : Nat) (hc : c + 64 ≤ 256)
    (hW : ∀ (k : Fin 128) (j : Fin 64), W (ValueIdx.ix2 k (⟨c + j.val, by omega⟩ : Fin 256)) = w (ValueIdx.ix2 k j))
    (hB : ∀ j : Fin 64, B (ValueIdx.ix2 (0 : Fin 1) (⟨c + j.val, by omega⟩ : Fin 256)) = bias (ValueIdx.ix1 j))
    (hs : Cert.KernelIdeal.S100000x256.Slices ![0, c] Cert.KernelIdeal.S100000x64) :
    extractStridedSlice Cert.KernelIdeal.S100000x64 ![0, c] (Cert.Spec.proj x W B) hs
      = Cert.ReferenceIdeal.Read.val_main_v7 (F := Ideal) x w bias := by
  funext i
  have hi0 : (i 0).val < 100000 := ValueIdx.idx2_lt0 i
  have hi1 : (i 1).val < 64 := ValueIdx.idx2_lt1 i
  -- the slice reads the wide result at row i₀, column c + i₁
  rw [extractStridedSlice_apply ![0, c] _ hs i
      (ValueIdx.ix2 (⟨(i 0).val, hi0⟩ : Fin 100000) (⟨c + (i 1).val, by omega⟩ : Fin 256))
      (fun a => match a with
        | ⟨0, _⟩ => by show (i 0).val = 0 + (i 0).val; omega
        | ⟨1, _⟩ => by show c + (i 1).val = c + (i 1).val; rfl)]
  -- the reference's stage at (i₀, i₁): the contraction plus the bias entry
  rw [Cert.ReferenceIdeal.Read.val_main_v7_apply, Cert.ReferenceIdeal.Read.val_main_v4_apply,
    Cert.ReferenceIdeal.Read.val_main_v6_apply, Cert.ReferenceIdeal.Read.val_main_v5_apply, Ideal.addf_def]
  -- the index functions of the two sides name the same entries
  have ex : ∀ k : Fin 128, ValueIdx.ix2 (⟨(i 0).val, hi0⟩ : Fin 100000) k = Cert.ReferenceIdeal.Read.lidx_main_v4 i k :=
    fun k => funext fun a => Fin.ext (by match a with | ⟨0, _⟩ => rfl | ⟨1, _⟩ => rfl)
  have ew : ∀ k : Fin 128, ValueIdx.ix2 k (⟨(i 1).val, hi1⟩ : Fin 64) = Cert.ReferenceIdeal.Read.ridx_main_v4 i k :=
    fun k => funext fun a => Fin.ext (by match a with | ⟨0, _⟩ => rfl | ⟨1, _⟩ => rfl)
  have eb : ValueIdx.ix1 (⟨(i 1).val, hi1⟩ : Fin 64)
      = Cert.ReferenceIdeal.Read.idx_main_v5 (Cert.ReferenceIdeal.Read.idx_main_v6 i) :=
    funext fun a => Fin.ext (by match a with | ⟨0, _⟩ => rfl)
  rw [← eb, ← hB ⟨(i 1).val, hi1⟩]
  refine congrArg₂ (· + ·) (Finset.sum_congr rfl fun k _ => ?_) rfl
  rw [← ex k, ← ew k, ← hW k ⟨(i 1).val, hi1⟩]

variable (x : FVec Ideal Cert.KernelIdeal.S100000x128 .f32)
  (w4 w6 w8 w12 : FVec Ideal Cert.KernelIdeal.S128x64 .f32) (b5 b7 b9 b13 : FVec Ideal Cert.KernelIdeal.S64 .f32)

theorem key_cols :
    extractStridedSlice Cert.KernelIdeal.S100000x64 ![0, 0] (Cert.Spec.proj x (wAll w4 w6 w8 w12) (bAll b5 b7 b9 b13)) slices_S100000x256_S100000x64_0_0
      = Cert.ReferenceIdeal.Read.val_main_v7 (F := Ideal) x w4 b5 :=
  proj_cols x _ _ w4 b5 0 (by omega) (wAll_cols0 w4 w6 w8 w12) (bAll_cols0 b5 b7 b9 b13) _

theorem query_cols :
    extractStridedSlice Cert.KernelIdeal.S100000x64 ![0, 64] (Cert.Spec.proj x (wAll w4 w6 w8 w12) (bAll b5 b7 b9 b13)) slices_S100000x256_S100000x64_0_64
      = Cert.ReferenceIdeal.Read.val_main_v11 (F := Ideal) x w6 b7 :=
  proj_cols x _ _ w6 b7 64 (by omega) (wAll_cols1 w4 w6 w8 w12) (bAll_cols1 b5 b7 b9 b13) _

theorem value_cols :
    extractStridedSlice Cert.KernelIdeal.S100000x64 ![0, 128] (Cert.Spec.proj x (wAll w4 w6 w8 w12) (bAll b5 b7 b9 b13)) slices_S100000x256_S100000x64_0_128
      = Cert.ReferenceIdeal.Read.val_main_v15 (F := Ideal) x w8 b9 :=
  proj_cols x _ _ w8 b9 128 (by omega) (wAll_cols2 w4 w6 w8 w12) (bAll_cols2 b5 b7 b9 b13) _

theorem skip_cols :
    (extractStridedSlice Cert.KernelIdeal.S100000x64 ![0, 192] (Cert.Spec.proj x (wAll w4 w6 w8 w12) (bAll b5 b7 b9 b13)) slices_S100000x256_S100000x64_0_192 : FVec Ideal Cert.KernelIdeal.S100000x64 .f32)
      = addf (Cert.ReferenceIdeal.Read.val_main_v53 (F := Ideal) x w12) (Cert.ReferenceIdeal.Read.val_main_v56 (F := Ideal) b13) :=
  proj_cols x _ _ w12 b13 192 (by omega) (wAll_cols3 w4 w6 w8 w12) (bAll_cols3 b5 b7 b9 b13) _

end Cert.Bridge

end
-- ==== Proof.Bridge2.lean ====
/-
  Two identities between arrays of extended reals that join what the kernel's second and third regions compute to the
  stages of the reference.
  The gated message: logistic(s) is 1 / (1 + exp(−s)), and the edge projection is the same 64-term sum on both sides.
  The final activation: (agg + (d + b)) and ((agg + d) + b) are the same extended real (addition of extended reals is
  associative, infinities included), so their maxima with zero agree.
-/
import proofs.«408360_j40956808135194_1_alg».proof.KernelIdeal
import proofs.«408360_j40956808135194_1_alg».proof.Proof.Gen.KernelIdeal
import proofs.«408360_j40956808135194_1_alg».proof.Proof.Gen.ReferenceIdeal.Read
import proofs.«408360_j40956808135194_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Cert.KernelIdeal.Facts₀ Cert.KernelIdeal.Facts

/-- The single-precision word 0x3F800000 is the extended real 1. -/
private theorem one_word : FloatOps.ofBits (F := Ideal) .f32 0x3F800000#32 = (1 : EReal) := by
  rw [Ideal.ofBits_def]
  simp [Ideal.ofBits, Ideal.ieee, -EReal.coe_mul]; norm_num

theorem msg_stage (ea : FVec Ideal Cert.KernelIdeal.S1600000x64 .f32) (we : FVec Ideal Cert.KernelIdeal.S64x64 .f32) (be : FVec Ideal Cert.KernelIdeal.S64 .f32)
    (gk gq gv : FVec Ideal Cert.KernelIdeal.S1600000x64 .f32) :
    (Cert.Spec.msg ea we (shapeCast Cert.KernelIdeal.S1x64 be shapeCasts_S64_S1x64) gk gq gv : FVec Ideal Cert.KernelIdeal.S1600000x64 .f32)
      = mulf (Host.divf (Cert.ReferenceIdeal.Read.val_main_v40 (F := Ideal))
          (addf (Cert.ReferenceIdeal.Read.val_main_v38 (F := Ideal)) (Host.exp (Host.negf (addf (addf gk gq) (Cert.ReferenceIdeal.Read.val_main_v19 (F := Ideal) ea we be)))))) gv := by
  funext i
  show Ideal.logistic ((gk i + gq i) + ((∑ k : Fin 64, ea (ValueIdx.ix2 (Cert.Spec.rowOf i) k) * we (ValueIdx.ix2 k (Cert.Spec.colOf i)))
        + shapeCast Cert.KernelIdeal.S1x64 be shapeCasts_S64_S1x64 (ValueIdx.ix2 (0 : Fin 1) (Cert.Spec.colOf i)))) * gv i
      = Ideal.div (Cert.ReferenceIdeal.Read.val_main_v40 (F := Ideal) i)
          (Cert.ReferenceIdeal.Read.val_main_v38 (F := Ideal) i + Ideal.exp (-((gk i + gq i) + Cert.ReferenceIdeal.Read.val_main_v19 (F := Ideal) ea we be i))) * gv i
  rw [Cert.ReferenceIdeal.Read.val_main_v40_apply, Cert.ReferenceIdeal.Read.val_main_cst_3_apply,
    Cert.ReferenceIdeal.Read.val_main_v38_apply, Cert.ReferenceIdeal.Read.val_main_cst_apply, one_word,
    Cert.ReferenceIdeal.Read.val_main_v19_apply, Ideal.addf_def, Cert.ReferenceIdeal.Read.val_main_v16_apply,
    Cert.ReferenceIdeal.Read.val_main_v18_apply, Cert.ReferenceIdeal.Read.val_main_v17_apply,
    ValueIdx.shapeCast_a_1a_apply]
  have hl : ∀ k : Fin 64, ValueIdx.ix2 (Cert.Spec.rowOf i) k = Cert.ReferenceIdeal.Read.lidx_main_v16 i k := fun k =>
    funext fun a => match a with
      | ⟨0, _⟩ => rfl
      | ⟨1, _⟩ => rfl
  have hr : ∀ k : Fin 64, ValueIdx.ix2 k (Cert.Spec.colOf i) = Cert.ReferenceIdeal.Read.ridx_main_v16 i k := fun k =>
    funext fun a => match a with
      | ⟨0, _⟩ => rfl
      | ⟨1, _⟩ => rfl
  have hb : ValueIdx.ix1 (Cert.Spec.colOf i)
      = Cert.ReferenceIdeal.Read.idx_main_v17 (Cert.ReferenceIdeal.Read.idx_main_v18 i) :=
    funext fun a => match a with
      | ⟨0, _⟩ => rfl
  simp only [hl, hr, hb]
  rfl

theorem act_stage (agg d b : FVec Ideal Cert.KernelIdeal.S100000x64 .f32) :
    (Cert.Spec.act agg (addf d b) : FVec Ideal Cert.KernelIdeal.S100000x64 .f32) = maximumf (addf (addf agg d) b) (Cert.ReferenceIdeal.Read.val_main_call0_v0 (F := Ideal)) := by
  funext i
  show max (agg i + (d i + b i)) 0 = max ((agg i + d i) + b i) (Cert.ReferenceIdeal.Read.val_main_call0_v0 (F := Ideal) i)
  rw [Cert.ReferenceIdeal.Read.val_main_call0_v0_apply, Cert.ReferenceIdeal.Read.val_main_call0_cst_apply,
    Ideal.ofBits_def, Ideal.ofBits_zero_f32, add_assoc]

end Cert.Bridge

end
-- ==== Proof.KI.Value.lean ====
/-
  What the result buffer holds at the end of @main, over the extended reals, when every entry of the edge list is a
  row number 0 … 99999: the reference's own composed term of the fourteen argument arrays. The buffers are followed
  through the fold of @main's items: the projection array is x · [Wk | Wq | Wv | Ws] + [bk bq bv bs]; its four column
  blocks are the reference's key, query, value and skip projections; the three row takes are plain gathers because every
  row number is in the table; the edge region's array is the reference's gated message; the same scatter-add sums it;
  and the last region's max(agg + skip, 0) is the reference's max((agg + x · Ws) + bs, 0) by associativity of +.
-/
import proofs.«408360_j40956808135194_1_alg».proof.Proof.KI.Run
import proofs.«408360_j40956808135194_1_alg».proof.Proof.KI.Host
import proofs.«408360_j40956808135194_1_alg».proof.Proof.KI.HostTake0
import proofs.«408360_j40956808135194_1_alg».proof.Proof.KI.HostTake1
import proofs.«408360_j40956808135194_1_alg».proof.Proof.KI.HostTake2
import proofs.«408360_j40956808135194_1_alg».proof.Proof.KI.Val0
import proofs.«408360_j40956808135194_1_alg».proof.Proof.KI.Val1
import proofs.«408360_j40956808135194_1_alg».proof.Proof.KI.Val2
import proofs.«408360_j40956808135194_1_alg».proof.Proof.Bridge
import proofs.«408360_j40956808135194_1_alg».proof.Proof.Bridge2

set_option maxRecDepth 16384

noncomputable section

namespace Cert.KernelIdeal.Out

open Idealize.ShloMosaic Idealize.ShloMosaic.TcCoe Idealize.SL.Sem
open Cert.KernelIdeal Cert.KernelIdeal.Gen Cert.KernelIdeal.Fr Cert.KernelIdeal.HostVal Cert.KernelIdeal.Take
open Cert.ReferenceIdeal.Read (val_main_v1 val_main_v3 val_main_v7 val_main_v11 val_main_v15 val_main_v19 val_main_v25 val_main_v26
  val_main_v32 val_main_v33 val_main_v47 val_main_v48 val_main_v49 val_main_v52 val_main_v53 val_main_v56 val_main_v58)

variable (m : (ℓ : Loc nD τ sig) → Buf (Elt Ideal) ℓ) (ρ : Dev nD → PrngReg) (c : Dev nD)

/-! ## The argument arrays -/

abbrev a0 : FVec Ideal S100000x128 .f32 := m ((c.tc : Thread nD τ).loc main_arg0)
abbrev a1 : IVec S2x1600000 32 := m ((c.tc : Thread nD τ).loc main_arg1)
abbrev a2 : FVec Ideal S1600000x64 .f32 := m ((c.tc : Thread nD τ).loc main_arg2)
abbrev a4 : FVec Ideal S128x64 .f32 := m ((c.tc : Thread nD τ).loc main_arg4)
abbrev a5 : FVec Ideal S64 .f32 := m ((c.tc : Thread nD τ).loc main_arg5)
abbrev a6 : FVec Ideal S128x64 .f32 := m ((c.tc : Thread nD τ).loc main_arg6)
abbrev a7 : FVec Ideal S64 .f32 := m ((c.tc : Thread nD τ).loc main_arg7)
abbrev a8 : FVec Ideal S128x64 .f32 := m ((c.tc : Thread nD τ).loc main_arg8)
abbrev a9 : FVec Ideal S64 .f32 := m ((c.tc : Thread nD τ).loc main_arg9)
abbrev a10 : FVec Ideal S64x64 .f32 := m ((c.tc : Thread nD τ).loc main_arg10)
abbrev a11 : FVec Ideal S64 .f32 := m ((c.tc : Thread nD τ).loc main_arg11)
abbrev a12 : FVec Ideal S128x64 .f32 := m ((c.tc : Thread nD τ).loc main_arg12)
abbrev a13 : FVec Ideal S64 .f32 := m ((c.tc : Thread nD τ).loc main_arg13)

/-! ## An item leaves alone what it does not write -/

theorem s1 (b : Ref sig .tc) (h : b ∉ hostOps0_W) : W1 m ρ c (Proc.devRef .tc b) = W0 m ρ c (Proc.devRef .tc b) :=
  StableHlo.after_of_writes_sub hostOps0 _ hostOps0_writes h
theorem s3 (b : Ref sig .tc) (h : b ∉ hostOps1_W) : W3 m ρ c (Proc.devRef .tc b) = W2 m ρ c (Proc.devRef .tc b) :=
  StableHlo.after_of_writes_sub hostOps1 _ hostOps1_writes h
theorem s4 (b : Ref sig .tc) (h : b ∉ hostOps1_1_W) : W4 m ρ c (Proc.devRef .tc b) = W3 m ρ c (Proc.devRef .tc b) :=
  StableHlo.after_of_writes_sub hostOps1_1 _ hostOps1_1_writes h
theorem s5 (b : Ref sig .tc) (h : b ∉ hostOps1_2_W) : W5 m ρ c (Proc.devRef .tc b) = W4 m ρ c (Proc.devRef .tc b) :=
  StableHlo.after_of_writes_sub hostOps1_2 _ hostOps1_2_writes h
theorem s6 (b : Ref sig .tc) (h : b ∉ hostOps1_3_W) : W6 m ρ c (Proc.devRef .tc b) = W5 m ρ c (Proc.devRef .tc b) :=
  StableHlo.after_of_writes_sub hostOps1_3 _ hostOps1_3_writes h
theorem s7 (b : Ref sig .tc) (h : b ∉ hostOps1_4_W) : W7 m ρ c (Proc.devRef .tc b) = W6 m ρ c (Proc.devRef .tc b) :=
  StableHlo.after_of_writes_sub hostOps1_4 _ hostOps1_4_writes h
theorem s9 (b : Ref sig .tc) (h : b ∉ hostOps2_W) : W9 m ρ c (Proc.devRef .tc b) = W8 m ρ c (Proc.devRef .tc b) :=
  StableHlo.after_of_writes_sub hostOps2 _ hostOps2_writes h

/-! ## The projection -/

/-- The projection array: x times the four weight matrices side by side, plus the four biases end to end. -/
theorem proj_arr : W2 m ρ c (Proc.devRef .tc main_v3)
    = Cert.Spec.proj (a0 m c) (Cert.Bridge.wAll (a4 m c) (a6 m c) (a8 m c) (a12 m c)) (Cert.Bridge.bAll (a5 m c) (a7 m c) (a9 m c) (a13 m c)) := by
  refine (W2_arr m ρ c 3).trans ((Cert.KernelIdeal.Val.arr0 (V1 m ρ) c).trans ?_)
  have h0 : V1 m ρ c main_arg0 = a0 m c := s1 m ρ c main_arg0 (by decide)
  have h1 : V1 m ρ c main_v0 = Cert.Bridge.wAll (a4 m c) (a6 m c) (a8 m c) (a12 m c) := weights_row (W0 m ρ c)
  have h2 : V1 m ρ c main_v2 = Cert.Bridge.bAll (a5 m c) (a7 m c) (a9 m c) (a13 m c) := biases_row (W0 m ρ c)
  rw [h0, h1, h2]

/-- Its four blocks of 64 columns are the reference's key, query, value and skip projections. -/
theorem key_arr : W3 m ρ c (Proc.devRef .tc main_v4) = val_main_v7 (F := Ideal) (a0 m c) (a4 m c) (a5 m c) :=
  (key_block (W2 m ρ c)).trans (by rw [proj_arr]; exact Cert.Bridge.key_cols _ _ _ _ _ _ _ _ _)
theorem query_arr : W3 m ρ c (Proc.devRef .tc main_v5) = val_main_v11 (F := Ideal) (a0 m c) (a6 m c) (a7 m c) :=
  (query_block (W2 m ρ c)).trans (by rw [proj_arr]; exact Cert.Bridge.query_cols _ _ _ _ _ _ _ _ _)
theorem value_arr : W3 m ρ c (Proc.devRef .tc main_v6) = val_main_v15 (F := Ideal) (a0 m c) (a8 m c) (a9 m c) :=
  (value_block (W2 m ρ c)).trans (by rw [proj_arr]; exact Cert.Bridge.value_cols _ _ _ _ _ _ _ _ _)
theorem skip_arr : W3 m ρ c (Proc.devRef .tc main_v7)
    = (addf (val_main_v53 (F := Ideal) (a0 m c) (a12 m c)) (val_main_v56 (F := Ideal) (a13 m c)) : FVec Ideal S100000x64 .f32) :=
  (skip_block (W2 m ρ c)).trans (by rw [proj_arr]; exact Cert.Bridge.skip_cols _ _ _ _ _ _ _ _ _)

/-! ## The edge list -/

theorem edges_at2 : W2 m ρ c (Proc.devRef .tc main_arg1) = a1 m c :=
  (W2_keep m ρ c main_arg1 (by decide)).trans (s1 m ρ c main_arg1 (by decide))
/-- The edges' sources and targets are the reference's. -/
theorem src_arr : W3 m ρ c (Proc.devRef .tc main_v9) = val_main_v1 (F := Ideal) (a1 m c) :=
  (sources (W2 m ρ c)).trans (by rw [edges_at2]; rfl)
theorem dst_arr : W3 m ρ c (Proc.devRef .tc main_v11) = val_main_v3 (F := Ideal) (a1 m c) :=
  (targets (W2 m ρ c)).trans (by rw [edges_at2]; rfl)

/-! ## Buffers carried unchanged to where they are read -/

theorem attr_at7 : W7 m ρ c (Proc.devRef .tc main_arg2) = a2 m c :=
  (s7 m ρ c main_arg2 (by decide)).trans <| (s6 m ρ c main_arg2 (by decide)).trans <| (s5 m ρ c main_arg2 (by decide)).trans <|
    (s4 m ρ c main_arg2 (by decide)).trans <| (s3 m ρ c main_arg2 (by decide)).trans <| (W2_keep m ρ c main_arg2 (by decide)).trans (s1 m ρ c main_arg2 (by decide))
theorem ewts_at7 : W7 m ρ c (Proc.devRef .tc main_arg10) = a10 m c :=
  (s7 m ρ c main_arg10 (by decide)).trans <| (s6 m ρ c main_arg10 (by decide)).trans <| (s5 m ρ c main_arg10 (by decide)).trans <|
    (s4 m ρ c main_arg10 (by decide)).trans <| (s3 m ρ c main_arg10 (by decide)).trans <| (W2_keep m ρ c main_arg10 (by decide)).trans (s1 m ρ c main_arg10 (by decide))
theorem ebias_at6 : W6 m ρ c (Proc.devRef .tc main_arg11) = a11 m c :=
  (s6 m ρ c main_arg11 (by decide)).trans <| (s5 m ρ c main_arg11 (by decide)).trans <|
    (s4 m ρ c main_arg11 (by decide)).trans <| (s3 m ρ c main_arg11 (by decide)).trans <| (W2_keep m ρ c main_arg11 (by decide)).trans (s1 m ρ c main_arg11 (by decide))

theorem skip_at9 : W9 m ρ c (Proc.devRef .tc main_v7)
    = (addf (val_main_v53 (F := Ideal) (a0 m c) (a12 m c)) (val_main_v56 (F := Ideal) (a13 m c)) : FVec Ideal S100000x64 .f32) :=
  (s9 m ρ c main_v7 (by decide)).trans <| (W8_keep m ρ c main_v7 (by decide)).trans <| (s7 m ρ c main_v7 (by decide)).trans <|
    (s6 m ρ c main_v7 (by decide)).trans <| (s5 m ρ c main_v7 (by decide)).trans <| (s4 m ρ c main_v7 (by decide)).trans (skip_arr m ρ c)

variable (hr : ∀ i : S2x1600000.Idx, 0 ≤ (a1 m c i).toInt ∧ (a1 m c i).toInt < 100000)
include hr

theorem src_range (e : S1600000.Idx) : 0 ≤ (val_main_v1 (F := Ideal) (a1 m c) e).toInt ∧ (val_main_v1 (F := Ideal) (a1 m c) e).toInt < 100000 := by
  rw [Cert.ReferenceIdeal.Read.val_main_v1_apply, Cert.ReferenceIdeal.Read.val_main_v0_apply]
  exact hr _
theorem dst_range (e : S1600000.Idx) : 0 ≤ (val_main_v3 (F := Ideal) (a1 m c) e).toInt ∧ (val_main_v3 (F := Ideal) (a1 m c) e).toInt < 100000 := by
  rw [Cert.ReferenceIdeal.Read.val_main_v3_apply, Cert.ReferenceIdeal.Read.val_main_v2_apply]
  exact hr _

/-! ## The three row takes are the reference's gathers -/

theorem key_rows_arr : W7 m ρ c (Proc.devRef .tc main_v12) = val_main_v26 (F := Ideal) (a0 m c) (a1 m c) (a4 m c) (a5 m c) := by
  refine (s7 m ρ c main_v12 (by decide)).trans ((s6 m ρ c main_v12 (by decide)).trans ((s5 m ρ c main_v12 (by decide)).trans ?_))
  refine (key_rows (W3 m ρ c)).trans ?_
  rw [key_arr, dst_arr, rowsAt_eq_gather _ _ (dst_range m c hr)]
  rfl
theorem query_rows_arr : W7 m ρ c (Proc.devRef .tc main_v13) = val_main_v33 (F := Ideal) (a0 m c) (a1 m c) (a6 m c) (a7 m c) := by
  refine (s7 m ρ c main_v13 (by decide)).trans ((s6 m ρ c main_v13 (by decide)).trans ?_)
  refine (query_rows (W4 m ρ c)).trans ?_
  rw [s4 m ρ c main_v5 (by decide), s4 m ρ c main_v9 (by decide), query_arr, src_arr, rowsAt_eq_gather _ _ (src_range m c hr)]
  rfl
theorem value_rows_arr : W7 m ρ c (Proc.devRef .tc main_v14) = val_main_v48 (F := Ideal) (a0 m c) (a1 m c) (a8 m c) (a9 m c) := by
  refine (s7 m ρ c main_v14 (by decide)).trans ?_
  refine (value_rows (W5 m ρ c)).trans ?_
  rw [s5 m ρ c main_v6 (by decide), s4 m ρ c main_v6 (by decide), s5 m ρ c main_v9 (by decide), s4 m ρ c main_v9 (by decide),
    value_arr, src_arr, rowsAt_eq_gather _ _ (src_range m c hr)]
  rfl

/-! ## The gated messages -/

/-- The edge region's array is the reference's message. -/
theorem msg_arr : W8 m ρ c (Proc.devRef .tc main_v16)
    = val_main_v49 (F := Ideal) (a0 m c) (a1 m c) (a2 m c) (a4 m c) (a5 m c) (a6 m c) (a7 m c) (a8 m c) (a9 m c) (a10 m c) (a11 m c) := by
  refine (W8_arr m ρ c 6).trans ((Cert.KernelIdeal.Val.arr1 (V7 m ρ) c).trans ?_)
  have h0 : V7 m ρ c main_arg2 = a2 m c := attr_at7 m ρ c
  have h1 : V7 m ρ c main_arg10 = a10 m c := ewts_at7 m ρ c
  have h2 : V7 m ρ c main_v15 = shapeCast S1x64 (a11 m c) shapeCasts_S64_S1x64 :=
    (edge_bias_row (W6 m ρ c)).trans (by rw [ebias_at6])
  have h3 : V7 m ρ c main_v12 = _ := key_rows_arr m ρ c hr
  have h4 : V7 m ρ c main_v13 = _ := query_rows_arr m ρ c hr
  have h5 : V7 m ρ c main_v14 = _ := value_rows_arr m ρ c hr
  rw [h0, h1, h2, h3, h4, h5]
  exact (Cert.Bridge.msg_stage _ _ _ _ _ _).trans rfl

/-! ## The aggregate and the result -/

theorem agg_arr : W9 m ρ c (Proc.devRef .tc main_v19)
    = val_main_v52 (F := Ideal) (a0 m c) (a1 m c) (a2 m c) (a4 m c) (a5 m c) (a6 m c) (a7 m c) (a8 m c) (a9 m c) (a10 m c) (a11 m c) := by
  refine (summed (W8 m ρ c)).trans ?_
  have hd : W8 m ρ c (Proc.devRef .tc main_v11) = val_main_v3 (F := Ideal) (a1 m c) :=
    (W8_keep m ρ c main_v11 (by decide)).trans <| (s7 m ρ c main_v11 (by decide)).trans <| (s6 m ρ c main_v11 (by decide)).trans <|
      (s5 m ρ c main_v11 (by decide)).trans <| (s4 m ρ c main_v11 (by decide)).trans (dst_arr m ρ c)
  rw [hd, msg_arr m ρ c hr]
  rfl

/-- THE RESULT: the last region's array is the reference's result term of the argument arrays. -/
theorem out_arr : W10 m ρ c (Proc.devRef .tc main_v20)
    = val_main_v58 (F := Ideal) (a0 m c) (a1 m c) (a2 m c) (a4 m c) (a5 m c) (a6 m c) (a7 m c) (a8 m c) (a9 m c) (a10 m c) (a11 m c) (a12 m c) (a13 m c) := by
  refine (W10_arr m ρ c 2).trans ((Cert.KernelIdeal.Val.arr2 (V9 m ρ) c).trans ?_)
  have h0 : V9 m ρ c main_v19 = _ := agg_arr m ρ c hr
  have h1 : V9 m ρ c main_v7 = _ := skip_at9 m ρ c
  rw [h0, h1]
  exact (Cert.Bridge.act_stage _ _ _).trans rfl

end Cert.KernelIdeal.Out

end
-- ==== Proof.PreIdx.lean ====
import proofs.«408360_j40956808135194_1_alg».proof.Pre_finite_inputs
import Idealize.ShloMosaic.Lib.ReduceAll
import Idealize.ShloMosaic.Lib.ValueIdx
import Idealize.ShloMosaic.Lib.StableHlo.Predicate

noncomputable section

namespace Cert.PreIdx

open Idealize.ShloMosaic Cert.Pre_finite_inputs

variable [Cert.Pre_finite_inputs.Facts] {F : FTy → Type} [FloatOps F]

/-- The scalar shape has exactly one index. -/
private instance subsingleton_scalar_idx : Subsingleton S_.Idx := ⟨fun a b => funext fun d => d.elim0⟩

/-- A signed "greater or equal" test of two words that came out true orders their integer values. -/
private theorem toInt_le_of_cmpi_sge {a b : BitVec 32} (h : IntOp.cmpi .sge a b = 1#1) : b.toInt ≤ a.toInt := by
  unfold IntOp.cmpi at h
  exact BitVec.sle_iff_toInt_le.1 ((StableHlo.Predicate.ofBool_eq_one_iff _).1 h)

/-- A signed "less than" test of two words that came out true orders their integer values strictly. -/
private theorem toInt_lt_of_cmpi_slt {a b : BitVec 32} (h : IntOp.cmpi .slt a b = 1#1) : a.toInt < b.toInt := by
  unfold IntOp.cmpi at h
  exact BitVec.slt_iff_toInt_lt.1 ((StableHlo.Predicate.ofBool_eq_one_iff _).1 h)

theorem edge_range (a0 : FVec F S100000x128 .f32) (a1 : IVec S2x1600000 32) (a2 : FVec F S1600000x64 .f32) (a3 : FVec F S1x64 .f32)
    (a4 : FVec F S128x64 .f32) (a5 : FVec F S64 .f32) (a6 : FVec F S128x64 .f32) (a7 : FVec F S64 .f32) (a8 : FVec F S128x64 .f32)
    (a9 : FVec F S64 .f32) (a10 : FVec F S64x64 .f32) (a11 : FVec F S64 .f32) (a12 : FVec F S128x64 .f32) (a13 : FVec F S64 .f32)
    (h : fn (F := F) a0 a1 a2 a3 a4 a5 a6 a7 a8 a9 a10 a11 a12 a13 = fun _ => 1#1) :
    ∀ i : S2x1600000.Idx, 0 ≤ (a1 i).toInt ∧ (a1 i).toInt < 100000 := by
  intro i
  -- the predicate's value at the one index of the scalar shape
  have h0 := congrFun h ValueIdx.ix0
  dsimp only [fn, fn_part1, fn_part2, fn_part3, fn_part4, andi] at h0
  -- the result is ((everything before ∧ all entries ≥ 0) ∧ all entries < 100000): keep the last two conjuncts
  obtain ⟨hrest, hlt⟩ := IntOp.andi_eq_one.1 h0
  obtain ⟨_, hge⟩ := IntOp.andi_eq_one.1 hrest
  -- a conjunction over both axes that is true is true at every entry
  have hge_i := Host.reduce_andi_all _ _ _ _ _ hge i
  have hlt_i := Host.reduce_andi_all _ _ _ _ _ hlt i
  -- at entry i the broadcast scalar is the constant itself
  have hge_w : IntOp.cmpi .sge (a1 i) 0#32 = 1#1 := hge_i
  have hlt_w : IntOp.cmpi .slt (a1 i) 100000#32 = 1#1 := hlt_i
  have z0 : (0#32 : BitVec 32).toInt = 0 := by decide
  have zN : (100000#32 : BitVec 32).toInt = 100000 := by decide
  have hge_z := toInt_le_of_cmpi_sge hge_w
  have hlt_z := toInt_lt_of_cmpi_slt hlt_w
  rw [z0] at hge_z
  rw [zN] at hlt_z
  exact ⟨hge_z, hlt_z⟩

end Cert.PreIdx

end
-- ==== Proof.lean ====
/-
  The certificate of a gated graph convolution: per edge (s → t) the message logistic(k[t] + q[s] + e) · v[s], summed
  into row t, then max(· + skip, 0); k, q, v and skip are x · W + b for four weight matrices, e is edge_attr · W_edge +
  b_edge. The kernel computes the four projections as ONE product with the weights laid side by side, gathers rows
  on the host, computes the messages in a second region, sums them with the reference's own scatter-add, and
  applies the activation in a third region.

  The claim is proved under the precondition that every float input is finite AND every entry of the edge list is a
  row number 0 … 99999 (the added conjunct: outside it the reference itself indexes out of range, and the two programs
  then differ, the kernel filling a taken row with not-a-number where the reference's gather clamps).

  The three frames: each program runs to the end, faults nowhere and leaves its fourteen arguments as launched. For
  the two kernel programs this is the launch over @main's ten items, three of them kernel regions; for the reference
  it is its run with the result dropped. The idealization rewrote nothing, so `preserves` is trivial. For
  `algebraic`, over the extended reals the kernel's result buffer ends at the reference's own composed term of the
  arguments: the fused product's column blocks are the four projections (the same 128-term sums), the takes are
  plain gathers since every row number is in the table, logistic(s) is 1 / (1 + exp(−s)), and
  agg + (x · Ws + bs) = (agg + x · Ws) + bs because addition of extended reals is associative. Finiteness of the float
  inputs is not used.
-/
import proofs.«408360_j40956808135194_1_alg».proof.Defs
import proofs.«408360_j40956808135194_1_alg».proof.Proof.Gen.Kernel
import proofs.«408360_j40956808135194_1_alg».proof.Proof.Gen.KernelIdeal
import proofs.«408360_j40956808135194_1_alg».proof.Proof.Gen.ReferenceIdeal
import proofs.«408360_j40956808135194_1_alg».proof.Proof.Gen.Pre_finite_inputs
import proofs.«408360_j40956808135194_1_alg».proof.Proof.Gen.ReferenceIdeal.Run
import proofs.«408360_j40956808135194_1_alg».proof.Proof.Gen.ReferenceIdeal.Read
import proofs.«408360_j40956808135194_1_alg».proof.Proof.K.Run
import proofs.«408360_j40956808135194_1_alg».proof.Proof.KI.Run
import proofs.«408360_j40956808135194_1_alg».proof.Proof.KI.Value
import proofs.«408360_j40956808135194_1_alg».proof.Proof.PreIdx
import Idealize.ShloMosaic.Adequacy
import Idealize.ShloMosaic.Init

noncomputable section

namespace Cert.Proof

open Idealize.ShloMosaic Idealize.SL.Sem

theorem frame_kernel : Cert.frame_Kernel := fun m ρ _ => Cert.Kernel.Fr.frame m ρ

theorem frame_kernelIdeal : Cert.frame_KernelIdeal := fun m ρ _ => Cert.KernelIdeal.Fr.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both idealized programs end with the result at the reference's composed term of the kernel's argument arrays,
    and the pass-through results at the arguments themselves. -/
theorem algebraic : Cert.algebraic_KernelIdeal_ReferenceIdeal := by
  intro m ρ m' ρ' hpre hagree
  refine ⟨fun c => Cert.ReferenceIdeal.Read.val_main_v58 (F := Ideal) (Cert.KernelIdeal.Out.a0 m c) (Cert.KernelIdeal.Out.a1 m c) (Cert.KernelIdeal.Out.a2 m c) (Cert.KernelIdeal.Out.a4 m c) (Cert.KernelIdeal.Out.a5 m c) (Cert.KernelIdeal.Out.a6 m c) (Cert.KernelIdeal.Out.a7 m c) (Cert.KernelIdeal.Out.a8 m c) (Cert.KernelIdeal.Out.a9 m c) (Cert.KernelIdeal.Out.a10 m c) (Cert.KernelIdeal.Out.a11 m c) (Cert.KernelIdeal.Out.a12 m c) (Cert.KernelIdeal.Out.a13 m c),
    fun c => m ((c.tc : Thread Cert.KernelIdeal.nD Cert.KernelIdeal.τ).loc Cert.KernelIdeal.main_arg2),
    fun c => m ((c.tc : Thread Cert.KernelIdeal.nD Cert.KernelIdeal.τ).loc Cert.KernelIdeal.main_arg3), ?_, ?_⟩
  · refine (θ_run Cert.KernelIdeal.defs _ _).mono (fun r h c => ?_) (Cert.KernelIdeal.Fr.run_all m ρ)
    have hr := Cert.PreIdx.edge_range (F := Ideal) _ _ _ _ _ _ _ _ _ _ _ _ _ _ (hpre c)
    have hk := Cert.KernelIdeal.Fr.kept_args m ρ (h c)
    exact ⟨(Cert.KernelIdeal.Fr.read_at m ρ (h c) Cert.KernelIdeal.main_v20 (by decide)).trans (Cert.KernelIdeal.Out.out_arr m ρ c hr),
      hk.2.2.1, hk.2.2.2.1, hk⟩
  · refine (θ_run Cert.ReferenceIdeal.defs _ _).mono (fun r h c => ?_) (Cert.ReferenceIdeal.Value.run (F := Ideal) m' ρ')
    obtain ⟨g0, g1, g2, g3, g4, g5, g6, g7, g8, g9, g10, g11, g12, g13⟩ := hagree c
    refine ⟨(h c).1.trans ((Cert.ReferenceIdeal.Read.val_main_v58_eq m' c).trans ?_), (h c).2.1.trans g2, (h c).2.2.1.trans g3, (h c).2.2.2⟩
    rw [g0, g1, g2, g4, g5, g6, g7, g8, g9, g10, g11, g12, g13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
